-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v63) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S64x64 : Shape := ⟨2, ![64, 64]⟩
abbrev S64x32 : Shape := ⟨2, ![64, 32]⟩
abbrev S32 : Shape := ⟨1, ![32]⟩
abbrev S32x32 : Shape := ⟨2, ![32, 32]⟩
abbrev S32x64 : Shape := ⟨2, ![32, 64]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_
  bcast_S_S64x64 : S_.BroadcastsInDim S64x64 (![] : Fin 0 → Fin S64x64.rank)
  reducesTo_S64x64_S_d0_1 : S64x64.ReducesTo [0, 1] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x64 : S_.BroadcastsInDim S32x64 (![] : Fin 0 → Fin S32x64.rank)
  reducesTo_S32x64_S_d0_1 : S32x64.ReducesTo [0, 1] S_

variable [Facts]

def fn_part6 {F : FTy → Type} [FloatOps F] (main_arg21 : FVec F S32x64 .f32) (main_arg22 : FVec F S64 .f32) (main_v98 : IVec S_ 1) (main_v101 : IVec S32 1) (main_c_39 : IVec S_ 1) : IVec S_ 1 :=
  let main_v102 : IVec S_ 1 := (fun x v => Host.reduce IntOp.andi x v reducesTo_S32_S_d0 h_S_) main_v101 main_c_39
  let main_v103 : IVec S_ 1 := andi main_v98 main_v102
  let main_v104 : FVec F S32x64 .f32 := Host.absf main_arg21
  let main_cst_40 : FVec F S_ .f32 := constant S_ .f32 0x7F800000#32
  let main_v105 : FVec F S32x64 .f32 := broadcastInDim S32x64 ![] bcast_S_S32x64 main_cst_40
  let main_v106 : IVec S32x64 1 := cmpf .olt main_v104 main_v105
  let main_c_41 : IVec S_ 1 := constantI S_ 1 1#1
  let main_v107 : IVec S_ 1 := (fun x v => Host.reduce IntOp.andi x v reducesTo_S32x64_S_d0_1 h_S_) main_v106 main_c_41
  let main_v108 : IVec S_ 1 := andi main_v103 main_v107
  let main_v109 : FVec F S64 .f32 := Host.absf main_arg22
  let main_cst_42 : FVec F S_ .f32 := constant S_ .f32 0x7F800000#32
  let main_v110 : FVec F S64 .f32 := broadcastInDim S64 ![] bcast_S_S64 main_cst_42
  let main_v111 : IVec S64 1 := cmpf .olt main_v109 main_v110
  let main_c_43 : IVec S_ 1 := constantI S_ 1 1#1
  let main_v112 : IVec S_ 1 := (fun x v => Host.reduce IntOp.andi x v reducesTo_S64_S_d0 h_S_) main_v111 main_c_43
  let main_v113 : IVec S_ 1 := andi main_v108 main_v112
  main_v113

def fn_part5 {F : FTy → Type} [FloatOps F] (main_arg18 : FVec F S32 .f32) (main_arg19 : FVec F S32x32 .f32) (main_arg20 : FVec F S32 .f32) (main_arg21 : FVec F S32x64 .f32) (main_arg22 : FVec F S64 .f32) (main_v83 : IVec S_ 1) (main_v84 : FVec F S64x32 .f32) (main_cst_32 : FVec F S_ .f32) : IVec S_ 1 :=
  let main_v85 : FVec F S64x32 .f32 := broadcastInDim S64x32 ![] bcast_S_S64x32 main_cst_32
  let main_v86 : IVec S64x32 1 := cmpf .olt main_v84 main_v85
  let main_c_33 : IVec S_ 1 := constantI S_ 1 1#1
  let main_v87 : IVec S_ 1 := (fun x v => Host.reduce IntOp.andi x v reducesTo_S64x32_S_d0_1 h_S_) main_v86 main_c_33
  let main_v88 : IVec S_ 1 := andi main_v83 main_v87
  let main_v89 : FVec F S32 .f32 := Host.absf main_arg18
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S32x32 .f32 := Host.absf main_arg19
  let main_cst_36 : FVec F S_ .f32 := constant S_ .f32 0x7F800000#32
  let main_v95 : FVec F S32x32 .f32 := broadcastInDim S32x32 ![] bcast_S_S32x32 main_cst_36
  let main_v96 : IVec S32x32 1 := cmpf .olt main_v94 main_v95
  let main_c_37 : IVec S_ 1 := constantI S_ 1 1#1
  let main_v97 : IVec S_ 1 := (fun x v => Host.reduce IntOp.andi x v reducesTo_S32x32_S_d0_1 h_S_) main_v96 main_c_37
  let main_v98 : IVec S_ 1 := andi main_v93 main_v97
  let main_v99 : FVec F S32 .f32 := Host.absf main_arg20
  let main_cst_38 : FVec F S_ .f32 := constant S_ .f32 0x7F800000#32
  let main_v100 : FVec F S32 .f32 := broadcastInDim S32 ![] bcast_S_S32 main_cst_38
  let main_v101 : IVec S32 1 := cmpf .olt main_v99 main_v100
  let main_c_39 : IVec S_ 1 := constantI S_ 1 1#1
  fn_part6 (F := F) main_arg21 main_arg22 main_v98 main_v101 main_c_39

def fn_part4 {F : FTy → Type} [FloatOps F] (main_arg14 : FVec F S64 .f32) (main_arg15 : FVec F S64x64 .f32) (main_arg16 : FVec F S64 .f32) (main_arg17 : FVec F S64x32 .f32) (main_arg18 : FVec F S32 .f32) (main_arg19 : FVec F S32x32 .f32) (main_arg20 : FVec F S32 .f32) (main_arg21 : FVec F S32x64 .f32) (main_arg22 : FVec F S64 .f32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64x64 .f32 := Host.absf main_arg15
  let main_cst_28 : FVec F S_ .f32 := constant S_ .f32 0x7F800000#32
  let main_v75 : FVec F S64x64 .f32 := broadcastInDim S64x64 ![] bcast_S_S64x64 main_cst_28
  let main_v76 : IVec S64x64 1 := cmpf .olt main_v74 main_v75
  let main_c_29 : IVec S_ 1 := constantI S_ 1 1#1
  let main_v77 : IVec S_ 1 := (fun x v => Host.reduce IntOp.andi x v reducesTo_S64x64_S_d0_1 h_S_) main_v76 main_c_29
  let main_v78 : IVec S_ 1 := andi main_v73 main_v77
  let main_v79 : FVec F S64 .f32 := Host.absf main_arg16
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64x32 .f32 := Host.absf main_arg17
  let main_cst_32 : FVec F S_ .f32 := constant S_ .f32 0x7F800000#32
  fn_part5 (F := F) main_arg18 main_arg19 main_arg20 main_arg21 main_arg22 main_v83 main_v84 main_cst_32

def fn_part3 {F : FTy → Type} [FloatOps F] (main_arg11 : FVec F S128x64 .f32) (main_arg12 : FVec F S64 .f32) (main_arg13 : FVec F S64x64 .f32) (main_arg14 : FVec F S64 .f32) (main_arg15 : FVec F S64x64 .f32) (main_arg16 : FVec F S64 .f32) (main_arg17 : FVec F S64x32 .f32) (main_arg18 : FVec F S32 .f32) (main_arg19 : FVec F S32x32 .f32) (main_arg20 : FVec F S32 .f32) (main_arg21 : FVec F S32x64 .f32) (main_arg22 : FVec F S64 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128x64 .f32 := Host.absf main_arg11
  let main_cst_20 : FVec F S_ .f32 := constant S_ .f32 0x7F800000#32
  let main_v55 : FVec F S128x64 .f32 := broadcastInDim S128x64 ![] bcast_S_S128x64 main_cst_20
  let main_v56 : IVec S128x64 1 := cmpf .olt main_v54 main_v55
  let main_c_21 : IVec S_ 1 := constantI S_ 1 1#1
  let main_v57 : IVec S_ 1 := (fun x v => Host.reduce IntOp.andi x v reducesTo_S128x64_S_d0_1 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64x64 .f32 := Host.absf main_arg13
  let main_cst_24 : FVec F S_ .f32 := constant S_ .f32 0x7F800000#32
  let main_v65 : FVec F S64x64 .f32 := broadcastInDim S64x64 ![] bcast_S_S64x64 main_cst_24
  let main_v66 : IVec S64x64 1 := cmpf .olt main_v64 main_v65
  let main_c_25 : IVec S_ 1 := constantI S_ 1 1#1
  let main_v67 : IVec S_ 1 := (fun x v => Host.reduce IntOp.andi x v reducesTo_S64x64_S_d0_1 h_S_) main_v66 main_c_25
  fn_part4 (F := F) main_arg14 main_arg15 main_arg16 main_arg17 main_arg18 main_arg19 main_arg20 main_arg21 main_arg22 main_v63 main_v67

def fn_part2 {F : FTy → Type} [FloatOps F] (main_arg7 : FVec F S128x64 .f32) (main_arg8 : FVec F S64 .f32) (main_arg9 : FVec F S64x128 .f32) (main_arg10 : FVec F S128 .f32) (main_arg11 : FVec F S128x64 .f32) (main_arg12 : FVec F S64 .f32) (main_arg13 : FVec F S64x64 .f32) (main_arg14 : FVec F S64 .f32) (main_arg15 : FVec F S64x64 .f32) (main_arg16 : FVec F S64 .f32) (main_arg17 : FVec F S64x32 .f32) (main_arg18 : FVec F S32 .f32) (main_arg19 : FVec F S32x32 .f32) (main_arg20 : FVec F S32 .f32) (main_arg21 : FVec F S32x64 .f32) (main_arg22 : FVec F S64 .f32) (main_v33 : IVec S_ 1) : IVec S_ 1 :=
  let main_v34 : FVec F S128x64 .f32 := Host.absf main_arg7
  let main_cst_12 : FVec F S_ .f32 := constant S_ .f32 0x7F800000#32
  let main_v35 : FVec F S128x64 .f32 := broadcastInDim S128x64 ![] bcast_S_S128x64 main_cst_12
  let main_v36 : IVec S128x64 1 := cmpf .olt main_v34 main_v35
  let main_c_13 : IVec S_ 1 := constantI S_ 1 1#1
  let main_v37 : IVec S_ 1 := (fun x v => Host.reduce IntOp.andi x v reducesTo_S128x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x128 .f32 := Host.absf main_arg9
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S128 .f32 := Host.absf main_arg10
  let main_cst_18 : FVec F S_ .f32 := constant S_ .f32 0x7F800000#32
  let main_v50 : FVec F S128 .f32 := broadcastInDim S128 ![] bcast_S_S128 main_cst_18
  fn_part3 (F := F) main_arg11 main_arg12 main_arg13 main_arg14 main_arg15 main_arg16 main_arg17 main_arg18 main_arg19 main_arg20 main_arg21 main_arg22 main_v48 main_v49 main_v50

def fn_part1 {F : FTy → Type} [FloatOps F] (main_arg4 : FVec F S128 .f32) (main_arg5 : FVec F S128x128 .f32) (main_arg6 : FVec F S128 .f32) (main_arg7 : FVec F S128x64 .f32) (main_arg8 : FVec F S64 .f32) (main_arg9 : FVec F S64x128 .f32) (main_arg10 : FVec F S128 .f32) (main_arg11 : FVec F S128x64 .f32) (main_arg12 : FVec F S64 .f32) (main_arg13 : FVec F S64x64 .f32) (main_arg14 : FVec F S64 .f32) (main_arg15 : FVec F S64x64 .f32) (main_arg16 : FVec F S64 .f32) (main_arg17 : FVec F S64x32 .f32) (main_arg18 : FVec F S32 .f32) (main_arg19 : FVec F S32x32 .f32) (main_arg20 : FVec F S32 .f32) (main_arg21 : FVec F S32x64 .f32) (main_arg22 : FVec F S64 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg4
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x128 .f32 := Host.absf main_arg5
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128 .f32 := Host.absf main_arg6
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg21 main_arg22 main_v33

def fn {F : FTy → Type} [FloatOps F] (main_arg0 : FVec F S10000x128 .f32) (main_arg1 : FVec F S10000x10000 .f32) (main_arg2 : FVec F S10000x10000 .f32) (main_arg3 : FVec F S128x128 .f32) (main_arg4 : FVec F S128 .f32) (main_arg5 : FVec F S128x128 .f32) (main_arg6 : FVec F S128 .f32) (main_arg7 : FVec F S128x64 .f32) (main_arg8 : FVec F S64 .f32) (main_arg9 : FVec F S64x128 .f32) (main_arg10 : FVec F S128 .f32) (main_arg11 : FVec F S128x64 .f32) (main_arg12 : FVec F S64 .f32) (main_arg13 : FVec F S64x64 .f32) (main_arg14 : FVec F S64 .f32) (main_arg15 : FVec F S64x64 .f32) (main_arg16 : FVec F S64 .f32) (main_arg17 : FVec F S64x32 .f32) (main_arg18 : FVec F S32 .f32) (main_arg19 : FVec F S32x32 .f32) (main_arg20 : FVec F S32 .f32) (main_arg21 : FVec F S32x64 .f32) (main_arg22 : FVec F S64 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S10000x10000 .f32 := Host.absf main_arg2
  let main_cst_2 : FVec F S_ .f32 := constant S_ .f32 0x7F800000#32
  let main_v10 : FVec F S10000x10000 .f32 := broadcastInDim S10000x10000 ![] bcast_S_S10000x10000 main_cst_2
  let main_v11 : IVec S10000x10000 1 := cmpf .olt main_v9 main_v10
  let main_c_3 : IVec S_ 1 := constantI S_ 1 1#1
  let main_v12 : IVec S_ 1 := (fun x v => Host.reduce IntOp.andi x v reducesTo_S10000x10000_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg21 main_arg22 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S64x64 : Shape := ⟨2, ![64, 64]⟩
abbrev S64x32 : Shape := ⟨2, ![64, 32]⟩
abbrev S32 : Shape := ⟨1, ![32]⟩
abbrev S32x32 : Shape := ⟨2, ![32, 32]⟩
abbrev S32x64 : Shape := ⟨2, ![32, 64]⟩
abbrev S1x128 : Shape := ⟨2, ![1, 128]⟩
abbrev S1x64 : Shape := ⟨2, ![1, 64]⟩
abbrev S1x32 : Shape := ⟨2, ![1, 32]⟩
abbrev S10000x64 : Shape := ⟨2, ![10000, 64]⟩
abbrev S200x10000 : Shape := ⟨2, ![200, 10000]⟩
abbrev S200x64 : Shape := ⟨2, ![200, 64]⟩
abbrev S200x128 : Shape := ⟨2, ![200, 128]⟩
abbrev S10000x32 : Shape := ⟨2, ![10000, 32]⟩
abbrev S200x32 : Shape := ⟨2, ![200, 32]⟩

abbrev nBuf : Space → Nat
  | .hbm => 39
  | .vmem => 45
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S64x32, .f32⟩
  | .hbm, ⟨18, _⟩ => ⟨S32, .f32⟩
  | .hbm, ⟨19, _⟩ => ⟨S32x32, .f32⟩
  | .hbm, ⟨20, _⟩ => ⟨S32, .f32⟩
  | .hbm, ⟨21, _⟩ => ⟨S32x64, .f32⟩
  | .hbm, ⟨22, _⟩ => ⟨S64, .f32⟩
  | .hbm, ⟨23, _⟩ => ⟨S1x128, .f32⟩
  | .hbm, ⟨24, _⟩ => ⟨S1x128, .f32⟩
  | .hbm, ⟨25, _⟩ => ⟨S1x64, .f32⟩
  | .hbm, ⟨26, _⟩ => ⟨S1x128, .f32⟩
  | .hbm, ⟨27, _⟩ => ⟨S1x64, .f32⟩
  | .hbm, ⟨28, _⟩ => ⟨S1x64, .f32⟩
  | .hbm, ⟨29, _⟩ => ⟨S1x64, .f32⟩
  | .hbm, ⟨30, _⟩ => ⟨S1x32, .f32⟩
  | .hbm, ⟨31, _⟩ => ⟨S1x32, .f32⟩
  | .hbm, ⟨32, _⟩ => ⟨S1x64, .f32⟩
  | .hbm, ⟨33, _⟩ => ⟨S10000x128, .bf16⟩
  | .hbm, ⟨34, _⟩ => ⟨S10000x10000, .bf16⟩
  | .hbm, ⟨35, _⟩ => ⟨S10000x64, .f32⟩
  | .hbm, ⟨36, _⟩ => ⟨S10000x64, .bf16⟩
  | .hbm, ⟨37, _⟩ => ⟨S10000x32, .bf16⟩
  | .hbm, ⟨38, _⟩ => ⟨S10000x64, .f32⟩
  | .local _ .vmem, ⟨0, _⟩ => ⟨S10000x128, .f32⟩
  | .local _ .vmem, ⟨1, _⟩ => ⟨S128x128, .f32⟩
  | .local _ .vmem, ⟨2, _⟩ => ⟨S1x128, .f32⟩
  | .local _ .vmem, ⟨3, _⟩ => ⟨S128x128, .f32⟩
  | .local _ .vmem, ⟨4, _⟩ => ⟨S10000x128, .bf16⟩
  | .local _ .vmem, ⟨5, _⟩ => ⟨S200x10000, .f32⟩
  | .local _ .vmem, ⟨6, _⟩ => ⟨S200x10000, .f32⟩
  | .local _ .vmem, ⟨7, _⟩ => ⟨S200x10000, .f32⟩
  | .local _ .vmem, ⟨8, _⟩ => ⟨S200x10000, .f32⟩
  | .local _ .vmem, ⟨9, _⟩ => ⟨S10000x128, .bf16⟩
  | .local _ .vmem, ⟨10, _⟩ => ⟨S1x128, .f32⟩
  | .local _ .vmem, ⟨11, _⟩ => ⟨S128x64, .f32⟩
  | .local _ .vmem, ⟨12, _⟩ => ⟨S1x64, .f32⟩
  | .local _ .vmem, ⟨13, _⟩ => ⟨S64x128, .f32⟩
  | .local _ .vmem, ⟨14, _⟩ => ⟨S1x128, .f32⟩
  | .local _ .vmem, ⟨15, _⟩ => ⟨S128x64, .f32⟩
  | .local _ .vmem, ⟨16, _⟩ => ⟨S1x64, .f32⟩
  | .local _ .vmem, ⟨17, _⟩ => ⟨S64x64, .f32⟩
  | .local _ .vmem, ⟨18, _⟩ => ⟨S1x64, .f32⟩
  | .local _ .vmem, ⟨19, _⟩ => ⟨S64x64, .f32⟩
  | .local _ .vmem, ⟨20, _⟩ => ⟨S200x10000, .bf16⟩
  | .local _ .vmem, ⟨21, _⟩ => ⟨S200x10000, .bf16⟩
  | .local _ .vmem, ⟨22, _⟩ => ⟨S200x64, .f32⟩
  | .local _ .vmem, ⟨23, _⟩ => ⟨S200x64, .f32⟩
  | .local _ .vmem, ⟨24, _⟩ => ⟨S200x64, .bf16⟩
  | .local _ .vmem, ⟨25, _⟩ => ⟨S200x64, .bf16⟩
  | .local _ .vmem, ⟨26, _⟩ => ⟨S200x10000, .bf16⟩
  | .local _ .vmem, ⟨27, _⟩ => ⟨S200x10000, .bf16⟩
  | .local _ .vmem, ⟨28, _⟩ => ⟨S10000x64, .bf16⟩
  | .local _ .vmem, ⟨29, _⟩ => ⟨S200x64, .f32⟩
  | .local _ .vmem, ⟨30, _⟩ => ⟨S200x64, .f32⟩
  | .local _ .vmem, ⟨31, _⟩ => ⟨S1x64, .f32⟩
  | .local _ .vmem, ⟨32, _⟩ => ⟨S64x32, .f32⟩
  | .local _ .vmem, ⟨33, _⟩ => ⟨S1x32, .f32⟩
  | .local _ .vmem, ⟨34, _⟩ => ⟨S32x32, .f32⟩
  | .local _ .vmem, ⟨35, _⟩ => ⟨S200x32, .bf16⟩
  | .local _ .vmem, ⟨36, _⟩ => ⟨S200x32, .bf16⟩
  | .local _ .vmem, ⟨37, _⟩ => ⟨S200x10000, .bf16⟩
  | .local _ .vmem, ⟨38, _⟩ => ⟨S200x10000, .bf16⟩
  | .local _ .vmem, ⟨39, _⟩ => ⟨S10000x32, .bf16⟩
  | .local _ .vmem, ⟨40, _⟩ => ⟨S1x32, .f32⟩
  | .local _ .vmem, ⟨41, _⟩ => ⟨S32x64, .f32⟩
  | .local _ .vmem, ⟨42, _⟩ => ⟨S1x64, .f32⟩
  | .local _ .vmem, ⟨43, _⟩ => ⟨S200x64, .f32⟩
  | .local _ .vmem, ⟨44, _⟩ => ⟨S200x64, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11_0 : Ref sig .tc := ⟨.hbm, 34, rfl⟩
abbrev main_v11_1 : Ref sig .tc := ⟨.hbm, 35, rfl⟩
abbrev main_v11_2 : Ref sig .tc := ⟨.hbm, 36, rfl⟩
abbrev main_v12 : Ref sig .tc := ⟨.hbm, 37, rfl⟩
abbrev main_v13 : Ref sig .tc := ⟨.hbm, 38, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg5_0 : Ref sig .tc := ⟨.vmem, 12, rfl⟩
abbrev cc1_stg6_0 : Ref sig .tc := ⟨.vmem, 13, rfl⟩
abbrev cc1_stg7_0 : Ref sig .tc := ⟨.vmem, 14, rfl⟩
abbrev cc1_stg8_0 : Ref sig .tc := ⟨.vmem, 15, rfl⟩
abbrev cc1_stg9_0 : Ref sig .tc := ⟨.vmem, 16, rfl⟩
abbrev cc1_stg10_0 : Ref sig .tc := ⟨.vmem, 17, rfl⟩
abbrev cc1_stg11_0 : Ref sig .tc := ⟨.vmem, 18, rfl⟩
abbrev cc1_stg12_0 : Ref sig .tc := ⟨.vmem, 19, rfl⟩
abbrev cc1_stg13_0 : Ref sig .tc := ⟨.vmem, 20, rfl⟩
abbrev cc1_stg13_1 : Ref sig .tc := ⟨.vmem, 21, rfl⟩
abbrev cc1_stg14_0 : Ref sig .tc := ⟨.vmem, 22, rfl⟩
abbrev cc1_stg14_1 : Ref sig .tc := ⟨.vmem, 23, rfl⟩
abbrev cc1_stg15_0 : Ref sig .tc := ⟨.vmem, 24, rfl⟩
abbrev cc1_stg15_1 : Ref sig .tc := ⟨.vmem, 25, rfl⟩
abbrev cc2_stg0_0 : Ref sig .tc := ⟨.vmem, 26, rfl⟩
abbrev cc2_stg0_1 : Ref sig .tc := ⟨.vmem, 27, rfl⟩
abbrev cc2_stg1_0 : Ref sig .tc := ⟨.vmem, 28, rfl⟩
abbrev cc2_stg2_0 : Ref sig .tc := ⟨.vmem, 29, rfl⟩
abbrev cc2_stg2_1 : Ref sig .tc := ⟨.vmem, 30, rfl⟩
abbrev cc2_stg3_0 : Ref sig .tc := ⟨.vmem, 31, rfl⟩
abbrev cc2_stg4_0 : Ref sig .tc := ⟨.vmem, 32, rfl⟩
abbrev cc2_stg5_0 : Ref sig .tc := ⟨.vmem, 33, rfl⟩
abbrev cc2_stg6_0 : Ref sig .tc := ⟨.vmem, 34, rfl⟩
abbrev cc2_stg7_0 : Ref sig .tc := ⟨.vmem, 35, rfl⟩
abbrev cc2_stg7_1 : Ref sig .tc := ⟨.vmem, 36, rfl⟩
abbrev cc3_stg0_0 : Ref sig .tc := ⟨.vmem, 37, rfl⟩
abbrev cc3_stg0_1 : Ref sig .tc := ⟨.vmem, 38, rfl⟩
abbrev cc3_stg1_0 : Ref sig .tc := ⟨.vmem, 39, rfl⟩
abbrev cc3_stg2_0 : Ref sig .tc := ⟨.vmem, 40, rfl⟩
abbrev cc3_stg3_0 : Ref sig .tc := ⟨.vmem, 41, rfl⟩
abbrev cc3_stg4_0 : Ref sig .tc := ⟨.vmem, 42, rfl⟩
abbrev cc3_stg5_0 : Ref sig .tc := ⟨.vmem, 43, rfl⟩
abbrev cc3_stg5_1 : Ref sig .tc := ⟨.vmem, 44, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem4_0 : DmaSem sig := 11
abbrev cc1_sem5_0 : DmaSem sig := 12
abbrev cc1_sem6_0 : DmaSem sig := 13
abbrev cc1_sem7_0 : DmaSem sig := 14
abbrev cc1_sem8_0 : DmaSem sig := 15
abbrev cc1_sem9_0 : DmaSem sig := 16
abbrev cc1_sem10_0 : DmaSem sig := 17
abbrev cc1_sem11_0 : DmaSem sig := 18
abbrev cc1_sem12_0 : DmaSem sig := 19
abbrev cc1_sem13_0 : DmaSem sig := 20
abbrev cc1_sem13_1 : DmaSem sig := 21
abbrev cc1_sem14_0 : DmaSem sig := 22
abbrev cc1_sem14_1 : DmaSem sig := 23
abbrev cc1_sem15_0 : DmaSem sig := 24
abbrev cc1_sem15_1 : DmaSem sig := 25
abbrev cc2_sem0_0 : DmaSem sig := 26
abbrev cc2_sem0_1 : DmaSem sig := 27
abbrev cc2_sem1_0 : DmaSem sig := 28
abbrev cc2_sem2_0 : DmaSem sig := 29
abbrev cc2_sem2_1 : DmaSem sig := 30
abbrev cc2_sem3_0 : DmaSem sig := 31
abbrev cc2_sem4_0 : DmaSem sig := 32
abbrev cc2_sem5_0 : DmaSem sig := 33
abbrev cc2_sem6_0 : DmaSem sig := 34
abbrev cc2_sem7_0 : DmaSem sig := 35
abbrev cc2_sem7_1 : DmaSem sig := 36
abbrev cc3_sem0_0 : DmaSem sig := 37
abbrev cc3_sem0_1 : DmaSem sig := 38
abbrev cc3_sem1_0 : DmaSem sig := 39
abbrev cc3_sem2_0 : DmaSem sig := 40
abbrev cc3_sem3_0 : DmaSem sig := 41
abbrev cc3_sem4_0 : DmaSem sig := 42
abbrev cc3_sem5_0 : DmaSem sig := 43
abbrev cc3_sem5_1 : DmaSem sig := 44

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S10000x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_14 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_15 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S200x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S200x10000 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S10000x128 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S64x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S128x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 1 → Memref sig .tc .vmem S64x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false]

abbrev stage1_11 : Fin 1 → Memref sig .tc .vmem S1x64 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]

abbrev stage1_12 : Fin 1 → Memref sig .tc .vmem S64x64 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev stage1_13 : Fin 2 → Memref sig .tc .vmem S200x10000 .bf16 := fun | 0 => Memref.whole cc1_stg13_0 | 1 => Memref.whole cc1_stg13_1 | ⟨_ + 2, h⟩ => absurd h (Nat.not_lt.2 (Nat.le_add_left _ _))
abbrev sem1_13 : Fin 2 → DmaSem sig := fun | 0 => cc1_sem13_0 | 1 => cc1_sem13_1 | ⟨_ + 2, h⟩ => absurd h (Nat.not_lt.2 (Nat.le_add_left _ _))
abbrev reads1_13 : Fin grid1.rank → Bool := ![true]

abbrev stage1_14 : Fin 2 → Memref sig .tc .vmem S200x64 .f32 := fun | 0 => Memref.whole cc1_stg14_0 | 1 => Memref.whole cc1_stg14_1 | ⟨_ + 2, h⟩ => absurd h (Nat.not_lt.2 (Nat.le_add_left _ _))
abbrev sem1_14 : Fin 2 → DmaSem sig := fun | 0 => cc1_sem14_0 | 1 => cc1_sem14_1 | ⟨_ + 2, h⟩ => absurd h (Nat.not_lt.2 (Nat.le_add_left _ _))
abbrev reads1_14 : Fin grid1.rank → Bool := ![true]

abbrev stage1_15 : Fin 2 → Memref sig .tc .vmem S200x64 .bf16 := fun | 0 => Memref.whole cc1_stg15_0 | 1 => Memref.whole cc1_stg15_1 | ⟨_ + 2, h⟩ => absurd h (Nat.not_lt.2 (Nat.le_add_left _ _))
abbrev sem1_15 : Fin 2 → DmaSem sig := fun | 0 => cc1_sem15_0 | 1 => cc1_sem15_1 | ⟨_ + 2, h⟩ => absurd h (Nat.not_lt.2 (Nat.le_add_left _ _))
abbrev reads1_15 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S200x10000 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x64 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S200x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S32x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 2 → Memref sig .tc .vmem S200x32 .bf16 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S200x10000 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S10000x32 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S32x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S200x64 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

class Facts₀ : Prop where
  shapeCasts_S128_S1x128 : S128.ShapeCasts S1x128
  shapeCasts_S64_S1x64 : S64.ShapeCasts S1x64
  shapeCasts_S32_S1x32 : S32.ShapeCasts S1x32
  inb_S10000x128_S10000x128_0_0 : ∀ a, (![0, 0] : Fin 2 → Nat) a + S10000x128.size a ≤ S10000x128.size a
  h_S10000x128 : 0 < S10000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S10000x128 : S1x128.Broadcasts S10000x128
  bitsLt_bf16_f32 : FTy.bits .bf16 < FTy.bits .f32
  packedbf16_S10000x128_S10000x128_0_0 : (Rect.unit (s := S10000x128) ![0, 0] S10000x128.size inb_S10000x128_S10000x128_0_0).PackedRows (EltTy.packing .bf16)
  inb_S200x10000_S200x10000_0_0 : ∀ a, (![0, 0] : Fin 2 → Nat) a + S200x10000.size a ≤ S200x10000.size a
  h_S200x10000 : 0 < S200x10000.numel
  packedbf16_S200x10000_S200x10000_0_0 : (Rect.unit (s := S200x10000) ![0, 0] S200x10000.size inb_S200x10000_S200x10000_0_0).PackedRows (EltTy.packing .bf16)
  shapeCasts_S10000x128_S10000x128 : S10000x128.ShapeCasts S10000x128
  broadcasts_S1x128_S200x128 : S1x128.Broadcasts S200x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S200x64 : S1x64.Broadcasts S200x64
  inb_S64x128_S64x128_0_0 : ∀ a, (![0, 0] : Fin 2 → Nat) a + S64x128.size a ≤ S64x128.size a
  h_S64x128 : 0 < S64x128.numel
  inb_S64x64_S64x64_0_0 : ∀ a, (![0, 0] : Fin 2 → Nat) a + S64x64.size a ≤ S64x64.size a
  h_S64x64 : 0 < S64x64.numel
  inb_S200x64_S200x64_0_0 : ∀ a, (![0, 0] : Fin 2 → Nat) a + S200x64.size a ≤ S200x64.size a
  h_S200x64 : 0 < S200x64.numel
  packedbf16_S200x64_S200x64_0_0 : (Rect.unit (s := S200x64) ![0, 0] S200x64.size inb_S200x64_S200x64_0_0).PackedRows (EltTy.packing .bf16)
  shapeCasts_S200x10000_S200x10000 : S200x10000.ShapeCasts S200x10000
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  shapeCasts_S200x64_S200x64 : S200x64.ShapeCasts S200x64
  inb_S64x32_S64x32_0_0 : ∀ a, (![0, 0] : Fin 2 → Nat) a + S64x32.size a ≤ S64x32.size a
  h_S64x32 : 0 < S64x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S200x32 : S1x32.Broadcasts S200x32
  inb_S32x32_S32x32_0_0 : ∀ a, (![0, 0] : Fin 2 → Nat) a + S32x32.size a ≤ S32x32.size a
  h_S32x32 : 0 < S32x32.numel
  inb_S200x32_S200x32_0_0 : ∀ a, (![0, 0] : Fin 2 → Nat) a + S200x32.size a ≤ S200x32.size a
  h_S200x32 : 0 < S200x32.numel
  packedbf16_S200x32_S200x32_0_0 : (Rect.unit (s := S200x32) ![0, 0] S200x32.size inb_S200x32_S200x32_0_0).PackedRows (EltTy.packing .bf16)
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  inb_S32x64_S32x64_0_0 : ∀ a, (![0, 0] : Fin 2 → Nat) a + S32x64.size a ≤ S32x64.size a
  h_S32x64 : 0 < S32x64.numel
  dot_S10000x128_S128x128_S10000x128_1_0_0_1_n_n_wf : DotDims.WF S10000x128 S128x128 S10000x128 [1] [0] [0] [1] [] []
  dot_S200x10000_S10000x128_S200x128_1_0_0_1_n_n_wf : DotDims.WF S200x10000 S10000x128 S200x128 [1] [0] [0] [1] [] []
  dot_S200x128_S128x64_S200x64_1_0_0_1_n_n_wf : DotDims.WF S200x128 S128x64 S200x64 [1] [0] [0] [1] [] []
  dot_S200x64_S64x128_S200x128_1_0_0_1_n_n_wf : DotDims.WF S200x64 S64x128 S200x128 [1] [0] [0] [1] [] []
  dot_S200x64_S64x64_S200x64_1_0_0_1_n_n_wf : DotDims.WF S200x64 S64x64 S200x64 [1] [0] [0] [1] [] []
  dot_S200x10000_S10000x64_S200x64_1_0_0_1_n_n_wf : DotDims.WF S200x10000 S10000x64 S200x64 [1] [0] [0] [1] [] []
  dot_S200x64_S64x32_S200x32_1_0_0_1_n_n_wf : DotDims.WF S200x64 S64x32 S200x32 [1] [0] [0] [1] [] []
  dot_S200x32_S32x32_S200x32_1_0_0_1_n_n_wf : DotDims.WF S200x32 S32x32 S200x32 [1] [0] [0] [1] [] []
  dot_S200x10000_S10000x32_S200x32_1_0_0_1_n_n_wf : DotDims.WF S200x10000 S10000x32 S200x32 [1] [0] [0] [1] [] []
  dot_S200x32_S32x64_S200x64_1_0_0_1_n_n_wf : DotDims.WF S200x32 S32x64 S200x64 [1] [0] [0] [1] [] []
  hstage0_0 : ∀ j, (stage0_0 j).IsWhole
  hstage0_1 : ∀ j, (stage0_1 j).IsWhole
  hstage0_2 : ∀ j, (stage0_2 j).IsWhole
  hstage0_3 : ∀ j, (stage0_3 j).IsWhole
  hstage0_4 : ∀ j, (stage0_4 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S200x10000.size a ≤ S10000x10000.size a
  hwx1_0 : ∀ i : grid1.Coords, EltTy.bits .f32 = 32 ∨ (Rect.block (s := S10000x10000) S200x10000.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S200x10000.size a ≤ S10000x10000.size a
  hwx1_1 : ∀ i : grid1.Coords, EltTy.bits .f32 = 32 ∨ (Rect.block (s := S10000x10000) S200x10000.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S10000x128.size a
  hwx1_2 : ∀ i : grid1.Coords, EltTy.bits .bf16 = 32 ∨ (Rect.block (s := S10000x128) S10000x128.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x64.size a ≤ S128x64.size a
  hwx1_4 : ∀ i : grid1.Coords, EltTy.bits .f32 = 32 ∨ (Rect.block (s := S128x64) S128x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S64x128.size a ≤ S64x128.size a
  hwx1_6 : ∀ i : grid1.Coords, EltTy.bits .f32 = 32 ∨ (Rect.block (s := S64x128) S64x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S128x64.size a ≤ S128x64.size a
  hwx1_8 : ∀ i : grid1.Coords, EltTy.bits .f32 = 32 ∨ (Rect.block (s := S128x64) S128x64.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x64.size a ≤ S1x64.size a
  hwx1_9 : ∀ i : grid1.Coords, EltTy.bits .f32 = 32 ∨ (Rect.block (s := S1x64) S1x64.size (cc1_transform_9 i) (hinb1_9 i)).WholeWords (EltTy.packing .f32)
  hstage1_10 : ∀ j, (stage1_10 j).IsWhole
  nbuf1_10 : grid1.bufCount reads1_10 true = 1
  hreads1_10 : ∀ i i' : grid1.Coords, (∀ a, reads1_10 a = true → i a = i' a) → cc1_transform_10 i = cc1_transform_10 i'
  hinb1_10 : ∀ (i : grid1.Coords) a, (cc1_transform_10 i a + 1) * S64x64.size a ≤ S64x64.size a
  hwx1_10 : ∀ i : grid1.Coords, EltTy.bits .f32 = 32 ∨ (Rect.block (s := S64x64) S64x64.size (cc1_transform_10 i) (hinb1_10 i)).WholeWords (EltTy.packing .f32)
  hstage1_11 : ∀ j, (stage1_11 j).IsWhole
  nbuf1_11 : grid1.bufCount reads1_11 true = 1
  hreads1_11 : ∀ i i' : grid1.Coords, (∀ a, reads1_11 a = true → i a = i' a) → cc1_transform_11 i = cc1_transform_11 i'
  hinb1_11 : ∀ (i : grid1.Coords) a, (cc1_transform_11 i a + 1) * S1x64.size a ≤ S1x64.size a
  hwx1_11 : ∀ i : grid1.Coords, EltTy.bits .f32 = 32 ∨ (Rect.block (s := S1x64) S1x64.size (cc1_transform_11 i) (hinb1_11 i)).WholeWords (EltTy.packing .f32)
  hstage1_12 : ∀ j, (stage1_12 j).IsWhole
  nbuf1_12 : grid1.bufCount reads1_12 true = 1
  hreads1_12 : ∀ i i' : grid1.Coords, (∀ a, reads1_12 a = true → i a = i' a) → cc1_transform_12 i = cc1_transform_12 i'
  hinb1_12 : ∀ (i : grid1.Coords) a, (cc1_transform_12 i a + 1) * S64x64.size a ≤ S64x64.size a
  hwx1_12 : ∀ i : grid1.Coords, EltTy.bits .f32 = 32 ∨ (Rect.block (s := S64x64) S64x64.size (cc1_transform_12 i) (hinb1_12 i)).WholeWords (EltTy.packing .f32)
  hstage1_13 : ∀ j, (stage1_13 j).IsWhole
  nbuf1_13 : grid1.bufCount reads1_13 false = 2
  hreads1_13 : ∀ i i' : grid1.Coords, (∀ a, reads1_13 a = true → i a = i' a) → cc1_transform_13 i = cc1_transform_13 i'
  hinb1_13 : ∀ (i : grid1.Coords) a, (cc1_transform_13 i a + 1) * S200x10000.size a ≤ S10000x10000.size a
  hwx1_13 : ∀ i : grid1.Coords, EltTy.bits .bf16 = 32 ∨ (Rect.block (s := S10000x10000) S200x10000.size (cc1_transform_13 i) (hinb1_13 i)).WholeWords (EltTy.packing .bf16)
  hstage1_14 : ∀ j, (stage1_14 j).IsWhole
  nbuf1_14 : grid1.bufCount reads1_14 false = 2
  hreads1_14 : ∀ i i' : grid1.Coords, (∀ a, reads1_14 a = true → i a = i' a) → cc1_transform_14 i = cc1_transform_14 i'
  hinb1_14 : ∀ (i : grid1.Coords) a, (cc1_transform_14 i a + 1) * S200x64.size a ≤ S10000x64.size a
  hwx1_14 : ∀ i : grid1.Coords, EltTy.bits .f32 = 32 ∨ (Rect.block (s := S10000x64) S200x64.size (cc1_transform_14 i) (hinb1_14 i)).WholeWords (EltTy.packing .f32)
  hstage1_15 : ∀ j, (stage1_15 j).IsWhole
  nbuf1_15 : grid1.bufCount reads1_15 false = 2
  hreads1_15 : ∀ i i' : grid1.Coords, (∀ a, reads1_15 a = true → i a = i' a) → cc1_transform_15 i = cc1_transform_15 i'
  hinb1_15 : ∀ (i : grid1.Coords) a, (cc1_transform_15 i a + 1) * S200x64.size a ≤ S10000x64.size a
  hwx1_15 : ∀ i : grid1.Coords, EltTy.bits .bf16 = 32 ∨ (Rect.block (s := S10000x64) S200x64.size (cc1_transform_15 i) (hinb1_15 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S200x10000.size a ≤ S10000x10000.size a
  hwx2_0 : ∀ i : grid2.Coords, EltTy.bits .bf16 = 32 ∨ (Rect.block (s := S10000x10000) S200x10000.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x64.size a ≤ S10000x64.size a
  hwx2_1 : ∀ i : grid2.Coords, EltTy.bits .bf16 = 32 ∨ (Rect.block (s := S10000x64) S10000x64.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S200x64.size a ≤ S10000x64.size a
  hwx2_2 : ∀ i : grid2.Coords, EltTy.bits .f32 = 32 ∨ (Rect.block (s := S10000x64) S200x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x32.size a ≤ S64x32.size a
  hwx2_4 : ∀ i : grid2.Coords, EltTy.bits .f32 = 32 ∨ (Rect.block (s := S64x32) S64x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x32.size a ≤ S1x32.size a
  hwx2_5 : ∀ i : grid2.Coords, EltTy.bits .f32 = 32 ∨ (Rect.block (s := S1x32) S1x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S32x32.size a ≤ S32x32.size a
  hwx2_6 : ∀ i : grid2.Coords, EltTy.bits .f32 = 32 ∨ (Rect.block (s := S32x32) S32x32.size (cc2_transform_6 i) (hinb2_6 i)).WholeWords (EltTy.packing .f32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S200x32.size a ≤ S10000x32.size a
  hwx2_7 : ∀ i : grid2.Coords, EltTy.bits .bf16 = 32 ∨ (Rect.block (s := S10000x32) S200x32.size (cc2_transform_7 i) (hinb2_7 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S200x10000.size a ≤ S10000x10000.size a
  hwx3_0 : ∀ i : grid3.Coords, EltTy.bits .bf16 = 32 ∨ (Rect.block (s := S10000x10000) S200x10000.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S10000x32.size a ≤ S10000x32.size a
  hwx3_1 : ∀ i : grid3.Coords, EltTy.bits .bf16 = 32 ∨ (Rect.block (s := S10000x32) S10000x32.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S32x64.size a ≤ S32x64.size a
  hwx3_3 : ∀ i : grid3.Coords, EltTy.bits .f32 = 32 ∨ (Rect.block (s := S32x64) S32x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x64.size a ≤ S1x64.size a
  hwx3_4 : ∀ i : grid3.Coords, EltTy.bits .f32 = 32 ∨ (Rect.block (s := S1x64) S1x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S200x64.size a ≤ S10000x64.size a
  hwx3_5 : ∀ i : grid3.Coords, EltTy.bits .f32 = 32 ∨ (Rect.block (s := S10000x64) S200x64.size (cc3_transform_5 i) (hinb3_5 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x64_S200x64_1_0_0_1_n_n : DotDims S200x128 S128x64 S200x64 where
  lhsContracting := [1]
  rhsContracting := [0]
  lhsNonContracting := [0]
  rhsNonContracting := [1]
  lhsBatch := []
  rhsBatch := []
  wf := dot_S200x128_S128x64_S200x64_1_0_0_1_n_n_wf
def dot_S200x64_S64x128_S200x128_1_0_0_1_n_n : DotDims S200x64 S64x128 S200x128 where
  lhsContracting := [1]
  rhsContracting := [0]
  lhsNonContracting := [0]
  rhsNonContracting := [1]
  lhsBatch := []
  rhsBatch := []
  wf := dot_S200x64_S64x128_S200x128_1_0_0_1_n_n_wf
def dot_S200x64_S64x64_S200x64_1_0_0_1_n_n : DotDims S200x64 S64x64 S200x64 where
  lhsContracting := [1]
  rhsContracting := [0]
  lhsNonContracting := [0]
  rhsNonContracting := [1]
  lhsBatch := []
  rhsBatch := []
  wf := dot_S200x64_S64x64_S200x64_1_0_0_1_n_n_wf
def dot_S200x10000_S10000x64_S200x64_1_0_0_1_n_n : DotDims S200x10000 S10000x64 S200x64 where
  lhsContracting := [1]
  rhsContracting := [0]
  lhsNonContracting := [0]
  rhsNonContracting := [1]
  lhsBatch := []
  rhsBatch := []
  wf := dot_S200x10000_S10000x64_S200x64_1_0_0_1_n_n_wf
def dot_S200x64_S64x32_S200x32_1_0_0_1_n_n : DotDims S200x64 S64x32 S200x32 where
  lhsContracting := [1]
  rhsContracting := [0]
  lhsNonContracting := [0]
  rhsNonContracting := [1]
  lhsBatch := []
  rhsBatch := []
  wf := dot_S200x64_S64x32_S200x32_1_0_0_1_n_n_wf
def dot_S200x32_S32x32_S200x32_1_0_0_1_n_n : DotDims S200x32 S32x32 S200x32 where
  lhsContracting := [1]
  rhsContracting := [0]
  lhsNonContracting := [0]
  rhsNonContracting := [1]
  lhsBatch := []
  rhsBatch := []
  wf := dot_S200x32_S32x32_S200x32_1_0_0_1_n_n_wf
def dot_S200x10000_S10000x32_S200x32_1_0_0_1_n_n : DotDims S200x10000 S10000x32 S200x32 where
  lhsContracting := [1]
  rhsContracting := [0]
  lhsNonContracting := [0]
  rhsNonContracting := [1]
  lhsBatch := []
  rhsBatch := []
  wf := dot_S200x10000_S10000x32_S200x32_1_0_0_1_n_n_wf
def dot_S200x32_S32x64_S200x64_1_0_0_1_n_n : DotDims S200x32 S32x64 S200x64 where
  lhsContracting := [1]
  rhsContracting := [0]
  lhsNonContracting := [0]
  rhsNonContracting := [1]
  lhsBatch := []
  rhsBatch := []
  wf := dot_S200x32_S32x64_S200x64_1_0_0_1_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg3) false false (stage0_1 0) (sem0_1 0) (Memref.isWhole_whole _) (hstage0_1 0)

abbrev win0_2 : Pipeline.Window sig grid0 :=
  Pipeline.Window.whole (Memref.whole main_v0) false false (stage0_2 0) (sem0_2 0) (Memref.isWhole_whole _) (hstage0_2 0)

abbrev win0_3 : Pipeline.Window sig grid0 :=
  Pipeline.Window.whole (Memref.whole main_arg5) false false (stage0_3 0) (sem0_3 0) (Memref.isWhole_whole _) (hstage0_3 0)

abbrev win0_4 : Pipeline.Window sig grid0 :=
  Pipeline.Window.whole (Memref.whole main_v10) true false (stage0_4 0) (sem0_4 0) (Memref.isWhole_whole _) (hstage0_4 0)

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_arg1) S200x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S200x10000.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v10) S10000x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v2) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg9) S64x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v3) S1x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_arg11) S128x64.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v4) S1x64.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_arg13) S64x64.size cc1_transform_10 reads1_10 false true 1 stage1_10 sem1_10
    hrank1 hreads1_10 hinb1_10 nbuf1_10 (Memref.isWhole_whole _) hwx1_10 hstage1_10

abbrev win1_11 : Pipeline.Window sig grid1 :=
  Pipeline.Window.ofSpec (Memref.whole main_v5) S1x64.size cc1_transform_11 reads1_11 false true 1 stage1_11 sem1_11
    hrank1 hreads1_11 hinb1_11 nbuf1_11 (Memref.isWhole_whole _) hwx1_11 hstage1_11

abbrev win1_12 : Pipeline.Window sig grid1 :=
  Pipeline.Window.ofSpec (Memref.whole main_arg15) S64x64.size cc1_transform_12 reads1_12 false true 1 stage1_12 sem1_12
    hrank1 hreads1_12 hinb1_12 nbuf1_12 (Memref.isWhole_whole _) hwx1_12 hstage1_12

abbrev win1_13 : Pipeline.Window sig grid1 :=
  Pipeline.Window.ofSpec (Memref.whole main_v11_0) S200x10000.size cc1_transform_13 reads1_13 true false 2 stage1_13 sem1_13
    hrank1 hreads1_13 hinb1_13 nbuf1_13 (Memref.isWhole_whole _) hwx1_13 hstage1_13

abbrev win1_14 : Pipeline.Window sig grid1 :=
  Pipeline.Window.ofSpec (Memref.whole main_v11_1) S200x64.size cc1_transform_14 reads1_14 true false 2 stage1_14 sem1_14
    hrank1 hreads1_14 hinb1_14 nbuf1_14 (Memref.isWhole_whole _) hwx1_14 hstage1_14

abbrev win1_15 : Pipeline.Window sig grid1 :=
  Pipeline.Window.ofSpec (Memref.whole main_v11_2) S200x64.size cc1_transform_15 reads1_15 true false 2 stage1_15 sem1_15
    hrank1 hreads1_15 hinb1_15 nbuf1_15 (Memref.isWhole_whole _) hwx1_15 hstage1_15

abbrev win1 : Fin 16 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | 11 => win1_11 | 12 => win1_12 | 13 => win1_13 | 14 => win1_14 | 15 => win1_15 | ⟨_ + 16, h⟩ => absurd h (Nat.not_lt.2 (Nat.le_add_left _ _))
abbrev spec1 : Fin 16 → Pipeline.WinSpec sig grid1.rank := fun w => (win1 w).toWinSpec

abbrev win2_0 : Pipeline.Window sig grid2 :=
  Pipeline.Window.ofSpec (Memref.whole main_v11_0) S200x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v11_2) S10000x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v11_1) S200x64.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v6) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg17) S64x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v7) S1x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg19) S32x32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v12) S200x32.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

abbrev win3_0 : Pipeline.Window sig grid3 :=
  Pipeline.Window.ofSpec (Memref.whole main_v11_0) S200x10000.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v12) S10000x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v8) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_arg21) S32x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v9) S1x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v13) S200x64.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S64x64 : Shape := ⟨2, ![64, 64]⟩
abbrev S64x32 : Shape := ⟨2, ![64, 32]⟩
abbrev S32 : Shape := ⟨1, ![32]⟩
abbrev S32x32 : Shape := ⟨2, ![32, 32]⟩
abbrev S32x64 : Shape := ⟨2, ![32, 64]⟩
abbrev S1x128 : Shape := ⟨2, ![1, 128]⟩
abbrev S10000x64 : Shape := ⟨2, ![10000, 64]⟩
abbrev S1x64 : Shape := ⟨2, ![1, 64]⟩
abbrev S_ : Shape := ⟨0, ![]⟩
abbrev S10000x32 : Shape := ⟨2, ![10000, 32]⟩
abbrev S1x32 : Shape := ⟨2, ![1, 32]⟩

abbrev nBuf : Space → Nat
  | .hbm => 97
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S10000x10000, .f32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x64, .f32⟩
  | .hbm, ⟨8, _⟩ => ⟨S64, .f32⟩
  | .hbm, ⟨9, _⟩ => ⟨S64x128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S64x64, .f32⟩
  | .hbm, ⟨14, _⟩ => ⟨S64, .f32⟩
  | .hbm, ⟨15, _⟩ => ⟨S64x64, .f32⟩
  | .hbm, ⟨16, _⟩ => ⟨S64, .f32⟩
  | .hbm, ⟨17, _⟩ => ⟨S64x32, .f32⟩
  | .hbm, ⟨18, _⟩ => ⟨S32, .f32⟩
  | .hbm, ⟨19, _⟩ => ⟨S32x32, .f32⟩
  | .hbm, ⟨20, _⟩ => ⟨S32, .f32⟩
  | .hbm, ⟨21, _⟩ => ⟨S32x64, .f32⟩
  | .hbm, ⟨22, _⟩ => ⟨S64, .f32⟩
  | .hbm, ⟨23, _⟩ => ⟨S10000x128, .f32⟩
  | .hbm, ⟨24, _⟩ => ⟨S1x128, .f32⟩
  | .hbm, ⟨25, _⟩ => ⟨S10000x128, .f32⟩
  | .hbm, ⟨26, _⟩ => ⟨S10000x128, .f32⟩
  | .hbm, ⟨27, _⟩ => ⟨S10000x128, .f32⟩
  | .hbm, ⟨28, _⟩ => ⟨S10000x10000, .f32⟩
  | .hbm, ⟨29, _⟩ => ⟨S10000x128, .f32⟩
  | .hbm, ⟨30, _⟩ => ⟨S1x128, .f32⟩
  | .hbm, ⟨31, _⟩ => ⟨S10000x128, .f32⟩
  | .hbm, ⟨32, _⟩ => ⟨S10000x128, .f32⟩
  | .hbm, ⟨33, _⟩ => ⟨S10000x64, .f32⟩
  | .hbm, ⟨34, _⟩ => ⟨S1x64, .f32⟩
  | .hbm, ⟨35, _⟩ => ⟨S10000x64, .f32⟩
  | .hbm, ⟨36, _⟩ => ⟨S10000x64, .f32⟩
  | .hbm, ⟨37, _⟩ => ⟨S_, .f32⟩
  | .hbm, ⟨38, _⟩ => ⟨S10000x64, .f32⟩
  | .hbm, ⟨39, _⟩ => ⟨S10000x64, .i1⟩
  | .hbm, ⟨40, _⟩ => ⟨S_, .f32⟩
  | .hbm, ⟨41, _⟩ => ⟨S10000x64, .f32⟩
  | .hbm, ⟨42, _⟩ => ⟨S10000x64, .f32⟩
  | .hbm, ⟨43, _⟩ => ⟨S10000x64, .f32⟩
  | .hbm, ⟨44, _⟩ => ⟨S10000x128, .f32⟩
  | .hbm, ⟨45, _⟩ => ⟨S1x128, .f32⟩
  | .hbm, ⟨46, _⟩ => ⟨S10000x128, .f32⟩
  | .hbm, ⟨47, _⟩ => ⟨S10000x128, .f32⟩
  | .hbm, ⟨48, _⟩ => ⟨S_, .f32⟩
  | .hbm, ⟨49, _⟩ => ⟨S10000x128, .f32⟩
  | .hbm, ⟨50, _⟩ => ⟨S10000x128, .i1⟩
  | .hbm, ⟨51, _⟩ => ⟨S_, .f32⟩
  | .hbm, ⟨52, _⟩ => ⟨S10000x128, .f32⟩
  | .hbm, ⟨53, _⟩ => ⟨S10000x128, .f32⟩
  | .hbm, ⟨54, _⟩ => ⟨S10000x128, .f32⟩
  | .hbm, ⟨55, _⟩ => ⟨S10000x64, .f32⟩
  | .hbm, ⟨56, _⟩ => ⟨S1x64, .f32⟩
  | .hbm, ⟨57, _⟩ => ⟨S10000x64, .f32⟩
  | .hbm, ⟨58, _⟩ => ⟨S10000x64, .f32⟩
  | .hbm, ⟨59, _⟩ => ⟨S_, .f32⟩
  | .hbm, ⟨60, _⟩ => ⟨S10000x64, .f32⟩
  | .hbm, ⟨61, _⟩ => ⟨S10000x64, .i1⟩
  | .hbm, ⟨62, _⟩ => ⟨S_, .f32⟩
  | .hbm, ⟨63, _⟩ => ⟨S10000x64, .f32⟩
  | .hbm, ⟨64, _⟩ => ⟨S10000x64, .f32⟩
  | .hbm, ⟨65, _⟩ => ⟨S10000x64, .f32⟩
  | .hbm, ⟨66, _⟩ => ⟨S10000x64, .f32⟩
  | .hbm, ⟨67, _⟩ => ⟨S1x64, .f32⟩
  | .hbm, ⟨68, _⟩ => ⟨S10000x64, .f32⟩
  | .hbm, ⟨69, _⟩ => ⟨S10000x64, .f32⟩
  | .hbm, ⟨70, _⟩ => ⟨S_, .f32⟩
  | .hbm, ⟨71, _⟩ => ⟨S10000x64, .f32⟩
  | .hbm, ⟨72, _⟩ => ⟨S10000x64, .f32⟩
  | .hbm, ⟨73, _⟩ => ⟨S10000x64, .f32⟩
  | .hbm, ⟨74, _⟩ => ⟨S10000x10000, .f32⟩
  | .hbm, ⟨75, _⟩ => ⟨S10000x64, .f32⟩
  | .hbm, ⟨76, _⟩ => ⟨S1x64, .f32⟩
  | .hbm, ⟨77, _⟩ => ⟨S10000x64, .f32⟩
  | .hbm, ⟨78, _⟩ => ⟨S10000x64, .f32⟩
  | .hbm, ⟨79, _⟩ => ⟨S10000x64, .f32⟩
  | .hbm, ⟨80, _⟩ => ⟨S_, .f32⟩
  | .hbm, ⟨81, _⟩ => ⟨S10000x64, .f32⟩
  | .hbm, ⟨82, _⟩ => ⟨S10000x64, .f32⟩
  | .hbm, ⟨83, _⟩ => ⟨S10000x32, .f32⟩
  | .hbm, ⟨84, _⟩ => ⟨S1x32, .f32⟩
  | .hbm, ⟨85, _⟩ => ⟨S10000x32, .f32⟩
  | .hbm, ⟨86, _⟩ => ⟨S10000x32, .f32⟩
  | .hbm, ⟨87, _⟩ => ⟨S10000x32, .f32⟩
  | .hbm, ⟨88, _⟩ => ⟨S10000x10000, .f32⟩
  | .hbm, ⟨89, _⟩ => ⟨S10000x32, .f32⟩
  | .hbm, ⟨90, _⟩ => ⟨S1x32, .f32⟩
  | .hbm, ⟨91, _⟩ => ⟨S10000x32, .f32⟩
  | .hbm, ⟨92, _⟩ => ⟨S10000x32, .f32⟩
  | .hbm, ⟨93, _⟩ => ⟨S10000x64, .f32⟩
  | .hbm, ⟨94, _⟩ => ⟨S1x64, .f32⟩
  | .hbm, ⟨95, _⟩ => ⟨S10000x64, .f32⟩
  | .hbm, ⟨96, _⟩ => ⟨S10000x64, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_v7 : Ref sig .tc := ⟨.hbm, 30, rfl⟩
abbrev main_v8 : Ref sig .tc := ⟨.hbm, 31, rfl⟩
abbrev main_v9 : Ref sig .tc := ⟨.hbm, 32, rfl⟩
abbrev main_v10 : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_cst : Ref sig .tc := ⟨.hbm, 37, rfl⟩
abbrev main_v14 : Ref sig .tc := ⟨.hbm, 38, rfl⟩
abbrev main_v15 : Ref sig .tc := ⟨.hbm, 39, rfl⟩
abbrev main_cst_0 : Ref sig .tc := ⟨.hbm, 40, rfl⟩
abbrev main_v16 : Ref sig .tc := ⟨.hbm, 41, rfl⟩
abbrev main_v17 : Ref sig .tc := ⟨.hbm, 42, rfl⟩
abbrev main_v18 : Ref sig .tc := ⟨.hbm, 43, rfl⟩
abbrev main_v19 : Ref sig .tc := ⟨.hbm, 44, rfl⟩
abbrev main_v20 : Ref sig .tc := ⟨.hbm, 45, rfl⟩
abbrev main_v21 : Ref sig .tc := ⟨.hbm, 46, rfl⟩
abbrev main_v22 : Ref sig .tc := ⟨.hbm, 47, rfl⟩
abbrev main_cst_1 : Ref sig .tc := ⟨.hbm, 48, rfl⟩
abbrev main_v23 : Ref sig .tc := ⟨.hbm, 49, rfl⟩
abbrev main_v24 : Ref sig .tc := ⟨.hbm, 50, rfl⟩
abbrev main_cst_2 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_cst_3 : Ref sig .tc := ⟨.hbm, 59, rfl⟩
abbrev main_v32 : Ref sig .tc := ⟨.hbm, 60, rfl⟩
abbrev main_v33 : Ref sig .tc := ⟨.hbm, 61, rfl⟩
abbrev main_cst_4 : Ref sig .tc := ⟨.hbm, 62, rfl⟩
abbrev main_v34 : Ref sig .tc := ⟨.hbm, 63, rfl⟩
abbrev main_v35 : Ref sig .tc := ⟨.hbm, 64, rfl⟩
abbrev main_v36 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_call3_cst : Ref sig .tc := ⟨.hbm, 70, rfl⟩
abbrev main_call3_v0 : Ref sig .tc := ⟨.hbm, 71, rfl⟩
abbrev main_v41 : Ref sig .tc := ⟨.hbm, 72, rfl⟩
abbrev main_v42 : Ref sig .tc := ⟨.hbm, 73, rfl⟩
abbrev main_v43 : Ref sig .tc := ⟨.hbm, 74, rfl⟩
abbrev main_v44 : Ref sig .tc := ⟨.hbm, 75, rfl⟩
abbrev main_v45 : Ref sig .tc := ⟨.hbm, 76, rfl⟩
abbrev main_v46 : Ref sig .tc := ⟨.hbm, 77, rfl⟩
abbrev main_v47 : Ref sig .tc := ⟨.hbm, 78, rfl⟩
abbrev main_v48 : Ref sig .tc := ⟨.hbm, 79, rfl⟩
abbrev main_call4_cst : Ref sig .tc := ⟨.hbm, 80, rfl⟩
abbrev main_call4_v0 : Ref sig .tc := ⟨.hbm, 81, rfl⟩
abbrev main_v49 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S64_S1x64_1 : S64.BroadcastsInDim S1x64 (![1] : Fin 1 → Fin S1x64.rank)
  bcast_S1x64_S10000x64_0_1 : S1x64.BroadcastsInDim S10000x64 (![0, 1] : Fin 2 → Fin S10000x64.rank)
  bcast_S_S10000x64 : S_.BroadcastsInDim S10000x64 (![] : Fin 0 → Fin S10000x64.rank)
  bcast_S_S10000x128 : S_.BroadcastsInDim S10000x128 (![] : Fin 0 → Fin S10000x128.rank)
  bcast_S32_S1x32_1 : S32.BroadcastsInDim S1x32 (![1] : Fin 1 → Fin S1x32.rank)
  bcast_S1x32_S10000x32_0_1 : S1x32.BroadcastsInDim S10000x32 (![0, 1] : Fin 2 → Fin S10000x32.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []
  dot_S10000x128_S128x64_S10000x64_1_0_0_1_n_n_wf : DotDims.WF S10000x128 S128x64 S10000x64 [1] [0] [0] [1] [] []
  dot_S10000x64_S64x128_S10000x128_1_0_0_1_n_n_wf : DotDims.WF S10000x64 S64x128 S10000x128 [1] [0] [0] [1] [] []
  dot_S10000x64_S64x64_S10000x64_1_0_0_1_n_n_wf : DotDims.WF S10000x64 S64x64 S10000x64 [1] [0] [0] [1] [] []
  dot_S10000x10000_S10000x64_S10000x64_1_0_0_1_n_n_wf : DotDims.WF S10000x10000 S10000x64 S10000x64 [1] [0] [0] [1] [] []
  dot_S10000x64_S64x32_S10000x32_1_0_0_1_n_n_wf : DotDims.WF S10000x64 S64x32 S10000x32 [1] [0] [0] [1] [] []
  dot_S10000x32_S32x32_S10000x32_1_0_0_1_n_n_wf : DotDims.WF S10000x32 S32x32 S10000x32 [1] [0] [0] [1] [] []
  dot_S10000x10000_S10000x32_S10000x32_1_0_0_1_n_n_wf : DotDims.WF S10000x10000 S10000x32 S10000x32 [1] [0] [0] [1] [] []
  dot_S10000x32_S32x64_S10000x64_1_0_0_1_n_n_wf : DotDims.WF S10000x32 S32x64 S10000x64 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def dot_S10000x64_S64x128_S10000x128_1_0_0_1_n_n : DotDims S10000x64 S64x128 S10000x128 where
  lhsContracting := [1]
  rhsContracting := [0]
  lhsNonContracting := [0]
  rhsNonContracting := [1]
  lhsBatch := []
  rhsBatch := []
  wf := dot_S10000x64_S64x128_S10000x128_1_0_0_1_n_n_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def dot_S10000x10000_S10000x64_S10000x64_1_0_0_1_n_n : DotDims S10000x10000 S10000x64 S10000x64 where
  lhsContracting := [1]
  rhsContracting := [0]
  lhsNonContracting := [0]
  rhsNonContracting := [1]
  lhsBatch := []
  rhsBatch := []
  wf := dot_S10000x10000_S10000x64_S10000x64_1_0_0_1_n_n_wf
def dot_S10000x64_S64x32_S10000x32_1_0_0_1_n_n : DotDims S10000x64 S64x32 S10000x32 where
  lhsContracting := [1]
  rhsContracting := [0]
  lhsNonContracting := [0]
  rhsNonContracting := [1]
  lhsBatch := []
  rhsBatch := []
  wf := dot_S10000x64_S64x32_S10000x32_1_0_0_1_n_n_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def dot_S10000x10000_S10000x32_S10000x32_1_0_0_1_n_n : DotDims S10000x10000 S10000x32 S10000x32 where
  lhsContracting := [1]
  rhsContracting := [0]
  lhsNonContracting := [0]
  rhsNonContracting := [1]
  lhsBatch := []
  rhsBatch := []
  wf := dot_S10000x10000_S10000x32_S10000x32_1_0_0_1_n_n_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf

class Facts : Prop extends Facts₀ where

variable [Facts]
-- ==== Proof.Spec.lean ====
/-
  What each array of the computation holds, as one function of the arrays it is made from, written with the
  reference's own whole-array operations: a graph network's three propagation steps `(adj ∘ dis) · support + b`
  around small dense layers. `P` is the entrywise product of the adjacency and the distance matrix; `s1`, `s2`,
  `s3` are the three supports; `res` is the residual branch after the four-layer perceptron.
-/
import proofs.«151210_g85950885527879_cont_sun_c4_601_3_alg».proof.Proof.Gen.ReferenceIdeal
import Idealize.ShloMosaic.PureOps.Ideal

noncomputable section

namespace Cert.Spec

open Idealize.ShloMosaic Cert.ReferenceIdeal Cert.ReferenceIdeal.Facts₀

/-- An array of extended reals of shape `s`. -/
abbrev Arr (s : Shape) : Type := s.Idx → EReal

/-- A bias vector laid along every row of a 10000-row array (128, 64 and 32 columns). -/
def bias128 (b : Arr S128) : Arr S10000x128 :=
  broadcastInDim S10000x128 ![0, 1] bcast_S1x128_S10000x128_0_1 (broadcastInDim S1x128 ![1] bcast_S128_S1x128_1 b)
def bias64 (b : Arr S64) : Arr S10000x64 :=
  broadcastInDim S10000x64 ![0, 1] bcast_S1x64_S10000x64_0_1 (broadcastInDim S1x64 ![1] bcast_S64_S1x64_1 b)
def bias32 (b : Arr S32) : Arr S10000x32 :=
  broadcastInDim S10000x32 ![0, 1] bcast_S1x32_S10000x32_0_1 (broadcastInDim S1x32 ![1] bcast_S32_S1x32_1 b)

/-- The leaky rectifier `x ↦ x` where `x > 0`, else the float `0.2` times `x`, entry by entry. -/
def leaky64 (h : Arr S10000x64) : Arr S10000x64 :=
  select (cmpf (F := Ideal) (φ := .f32) .ogt h (broadcastInDim S10000x64 ![] bcast_S_S10000x64 (constant (F := Ideal) S_ .f32 0x00000000#32))) h
    (mulf (F := Ideal) (φ := .f32) (broadcastInDim S10000x64 ![] bcast_S_S10000x64 (constant (F := Ideal) S_ .f32 0x3E4CCCCD#32)) h)
def leaky128 (h : Arr S10000x128) : Arr S10000x128 :=
  select (cmpf (F := Ideal) (φ := .f32) .ogt h (broadcastInDim S10000x128 ![] bcast_S_S10000x128 (constant (F := Ideal) S_ .f32 0x00000000#32))) h
    (mulf (F := Ideal) (φ := .f32) (broadcastInDim S10000x128 ![] bcast_S_S10000x128 (constant (F := Ideal) S_ .f32 0x3E4CCCCD#32)) h)

/-- The rectifier `max(x, 0)`, entry by entry. -/
def relu64 (h : Arr S10000x64) : Arr S10000x64 :=
  maximumf (F := Ideal) (φ := .f32) h (broadcastInDim S10000x64 ![] bcast_S_S10000x64 (constant (F := Ideal) S_ .f32 0x00000000#32))

/-- The first support: `(x · W_lin1 + b_lin1) · W_gc1`. -/
def s1 (x0 : Arr S10000x128) (x3 : Arr S128x128) (x4 : Arr S128) (x5 : Arr S128x128) : Arr S10000x128 :=
  Host.dotGeneral (F := Ideal) (φ₁ := .f32) (φ₂ := .f32) dot_S10000x128_S128x128_S10000x128_1_0_0_1_n_n none
    (addf (F := Ideal) (φ := .f32) (Host.dotGeneral (F := Ideal) (φ₁ := .f32) (φ₂ := .f32) dot_S10000x128_S128x128_S10000x128_1_0_0_1_n_n none x0 x3) (bias128 x4)) x5

/-- The weighted adjacency: `adj ∘ dis`. -/
def P (x1 x2 : Arr S10000x10000) : Arr S10000x10000 := mulf (F := Ideal) (φ := .f32) x1 x2

/-- The perceptron's second layer before its activation, from the first propagation `P · s1 + b_gc1` through
    the first leaky layer. -/
def z2 (p : Arr S10000x10000) (sup : Arr S10000x128) (x6 : Arr S128) (x7 : Arr S128x64) (x8 : Arr S64) (x9 : Arr S64x128)
    (x10 : Arr S128) : Arr S10000x128 :=
  addf (F := Ideal) (φ := .f32) (Host.dotGeneral (F := Ideal) (φ₁ := .f32) (φ₂ := .f32) dot_S10000x64_S64x128_S10000x128_1_0_0_1_n_n none
    (leaky64 (addf (F := Ideal) (φ := .f32) (Host.dotGeneral (F := Ideal) (φ₁ := .f32) (φ₂ := .f32) dot_S10000x128_S128x64_S10000x64_1_0_0_1_n_n none
      (addf (F := Ideal) (φ := .f32) (Host.dotGeneral (F := Ideal) (φ₁ := .f32) (φ₂ := .f32) dot_S10000x10000_S10000x128_S10000x128_1_0_0_1_n_n none p sup) (bias128 x6))
      x7) (bias64 x8)))
    x9) (bias128 x10)

/-- The rest of the perceptron from that pre-activation `z`: its leaky activation, a third leaky layer and a
    rectified fourth. -/
def resOf (z : Arr S10000x128) (x11 : Arr S128x64) (x12 : Arr S64) (x13 : Arr S64x64) (x14 : Arr S64) : Arr S10000x64 :=
  relu64 (addf (F := Ideal) (φ := .f32) (Host.dotGeneral (F := Ideal) (φ₁ := .f32) (φ₂ := .f32) dot_S10000x64_S64x64_S10000x64_1_0_0_1_n_n none
    (leaky64 (addf (F := Ideal) (φ := .f32) (Host.dotGeneral (F := Ideal) (φ₁ := .f32) (φ₂ := .f32) dot_S10000x128_S128x64_S10000x64_1_0_0_1_n_n none
      (leaky128 z) x11) (bias64 x12)))
    x13) (bias64 x14))

/-- The residual branch: the first propagation through three leaky layers and a rectified one. -/
def res (p : Arr S10000x10000) (sup : Arr S10000x128) (x6 : Arr S128) (x7 : Arr S128x64) (x8 : Arr S64) (x9 : Arr S64x128)
    (x10 : Arr S128) (x11 : Arr S128x64) (x12 : Arr S64) (x13 : Arr S64x64) (x14 : Arr S64) : Arr S10000x64 :=
  resOf (z2 p sup x6 x7 x8 x9 x10) x11 x12 x13 x14

/-- The second support: `res · W_gch`. -/
def s2 (rs : Arr S10000x64) (x15 : Arr S64x64) : Arr S10000x64 :=
  Host.dotGeneral (F := Ideal) (φ₁ := .f32) (φ₂ := .f32) dot_S10000x64_S64x64_S10000x64_1_0_0_1_n_n none rs x15

/-- The third support: `(relu(P · s2 + b_gch + res) · W_lin2 + b_lin2) · W_gc2`. -/
def s3 (p : Arr S10000x10000) (sup : Arr S10000x64) (rs : Arr S10000x64) (x16 : Arr S64) (x17 : Arr S64x32) (x18 : Arr S32) (x19 : Arr S32x32) :
    Arr S10000x32 :=
  Host.dotGeneral (F := Ideal) (φ₁ := .f32) (φ₂ := .f32) dot_S10000x32_S32x32_S10000x32_1_0_0_1_n_n none
    (addf (F := Ideal) (φ := .f32) (Host.dotGeneral (F := Ideal) (φ₁ := .f32) (φ₂ := .f32) dot_S10000x64_S64x32_S10000x32_1_0_0_1_n_n none
      (relu64 (addf (F := Ideal) (φ := .f32) (addf (F := Ideal) (φ := .f32)
        (Host.dotGeneral (F := Ideal) (φ₁ := .f32) (φ₂ := .f32) dot_S10000x10000_S10000x64_S10000x64_1_0_0_1_n_n none p sup) (bias64 x16)) rs))
      x17) (bias32 x18)) x19

/-- The result: `(P · s3 + b_gc2) · W_lin3 + b_lin3`. -/
def out (p : Arr S10000x10000) (sup : Arr S10000x32) (x20 : Arr S32) (x21 : Arr S32x64) (x22 : Arr S64) : Arr S10000x64 :=
  addf (F := Ideal) (φ := .f32) (Host.dotGeneral (F := Ideal) (φ₁ := .f32) (φ₂ := .f32) dot_S10000x32_S32x64_S10000x64_1_0_0_1_n_n none
    (addf (F := Ideal) (φ := .f32) (Host.dotGeneral (F := Ideal) (φ₁ := .f32) (φ₂ := .f32) dot_S10000x10000_S10000x32_S10000x32_1_0_0_1_n_n none p sup) (bias32 x20))
    x21) (bias64 x22)

end Cert.Spec

end
-- ==== Proof.LibMatmulAt.lean ====
/-
  A matrix product into a zero accumulator, read at one entry over the extended reals.

  For dimension numbers that contract the left operand's second axis with the right operand's first, with no batch
  axis — so that the left operand is read at (row, k) and the right at (k, column) — the entry (p, q) of the product
  of an [A × K] and a [K × B] matrix is `∑ₖ l[p, k] · r[k, q]`. The four facts about where the dimension numbers
  read their operands are hypotheses, so that the lemma serves any printed record of this kind.
-/
import Idealize.ShloMosaic.PureOps.Ideal.Laws
import Idealize.ShloMosaic.Lib.ValueIdx

noncomputable section

namespace Idealize.ShloMosaic.MatmulAt

open Idealize.ShloMosaic Idealize.ShloMosaic.ValueIdx

/-- Entry (p, q) of `l · r` accumulated into zero is the sum over the contracted axis of `l[p, k] · r[k, q]`, for
    dimension numbers `D` whose one contracted axis has extent `K` (`hr`, `hs`) and which read the left operand at
    (row, k) (`hl0`, `hl1`) and the right at (k, column) (`hr0`, `hr1`). -/
theorem matmul_zero_at {A K B : Nat} {φ₁ φ₂ : FTy}
    (D : DotDims (⟨2, ![A, K]⟩ : Shape) (⟨2, ![K, B]⟩ : Shape) (⟨2, ![A, B]⟩ : Shape))
    (hr : D.contr.rank = 1) (hs : D.contr.size ⟨0, by omega⟩ = K)
    (hl0 : ∀ (i : (⟨2, ![A, B]⟩ : Shape).Idx) (q : D.contr.Idx), (D.lhsIdx i q 0).val = (i 0).val)
    (hl1 : ∀ (i : (⟨2, ![A, B]⟩ : Shape).Idx) (q : D.contr.Idx), (D.lhsIdx i q 1).val = (q ⟨0, by omega⟩).val)
    (hr0 : ∀ (i : (⟨2, ![A, B]⟩ : Shape).Idx) (q : D.contr.Idx), (D.rhsIdx i q 0).val = (q ⟨0, by omega⟩).val)
    (hr1 : ∀ (i : (⟨2, ![A, B]⟩ : Shape).Idx) (q : D.contr.Idx), (D.rhsIdx i q 1).val = (i 1).val)
    (prec : Option ContractPrecision) (l : FVec Ideal (⟨2, ![A, K]⟩ : Shape) φ₁) (r : FVec Ideal (⟨2, ![K, B]⟩ : Shape) φ₂)
    (p : Fin A) (q : Fin B) :
    FloatOps.matmul D prec l r (constant (F := Ideal) (⟨2, ![A, B]⟩ : Shape) .f32 0x00000000#32) (ix2 p q)
      = ∑ k : Fin K, l (ix2 p k) * r (ix2 k q) := by
  rw [Ideal.matmul_constant_zero_apply, ← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact hl0 _ _
    | ⟨1, _⟩ => exact (hl1 _ _).trans hk)
  have er : D.rhsIdx (ix2 p q) ((contrEquiv1 D K hr hs).symm k) = ix2 k q := funext fun a => Fin.ext (by
    match a with
    | ⟨0, _⟩ => exact (hr0 _ _).trans hk
    | ⟨1, _⟩ => exact hr1 _ _)
  rw [el, er]

end Idealize.ShloMosaic.MatmulAt

end
-- ==== Proof.LibRows.lean ====
/-
  Row blocks of matrices over the extended reals.

  A kernel that walks a tall matrix in blocks of rows computes, on each block, the same rows a whole-array
  program computes at once: a product with a whole right operand, a pointwise operation, a bias row broadcast
  down the rows and a splat constant all commute with taking rows. `Rows r xb x` says that row `p` of the
  block `xb` is row `r p` of the array `x`; the lemmas below carry it through each such operation, the
  block's side written with the vector operations of a kernel body and the array's side with the host's.
-/
import Idealize.ShloMosaic.PureOps.Ideal.Laws
import Idealize.ShloMosaic.Lib.ValueIdx
import Idealize.ShloMosaic.Lib.ValueLayout
import Idealize.ShloMosaic.Lib.Pipeline.Value
import proofs.«151210_g85950885527879_cont_sun_c4_601_3_alg».proof.Proof.LibMatmulAt

noncomputable section

namespace Idealize.ShloMosaic.Rows

open Idealize.ShloMosaic Idealize.ShloMosaic.ValueIdx Idealize.ShloMosaic.MatmulAt

/-- The facts that make dimension numbers `D` those of a plain matrix product [A × K]·[K × B]: one contracted axis
    of extent `K`, the left operand read at (row, k), the right at (k, column). -/
structure Plain {A K B : Nat}
    (D : DotDims (⟨2, ![A, K]⟩ : Shape) (⟨2, ![K, B]⟩ : Shape) (⟨2, ![A, B]⟩ : Shape)) : Prop where
  rank : D.contr.rank = 1
  size : D.contr.size ⟨0, by omega⟩ = K
  l0 : ∀ (i : (⟨2, ![A, B]⟩ : Shape).Idx) (q : D.contr.Idx), (D.lhsIdx i q 0).val = (i 0).val
  l1 : ∀ (i : (⟨2, ![A, B]⟩ : Shape).Idx) (q : D.contr.Idx), (D.lhsIdx i q 1).val = (q ⟨0, by omega⟩).val
  r0 : ∀ (i : (⟨2, ![A, B]⟩ : Shape).Idx) (q : D.contr.Idx), (D.rhsIdx i q 0).val = (q ⟨0, by omega⟩).val
  r1 : ∀ (i : (⟨2, ![A, B]⟩ : Shape).Idx) (q : D.contr.Idx), (D.rhsIdx i q 1).val = (i 1).val

/-- Entry (p, q) of the host's product `l · r` is the sum over the contracted axis of `l[p, k] · r[k, q]`. -/
theorem dotGeneral_at {A K B : Nat} {φ₁ φ₂ : FTy}
    (D : DotDims (⟨2, ![A, K]⟩ : Shape) (⟨2, ![K, B]⟩ : Shape) (⟨2, ![A, B]⟩ : Shape)) (hD : Plain D)
    (prec : Option ContractPrecision) (l : FVec Ideal (⟨2, ![A, K]⟩ : Shape) φ₁) (r : FVec Ideal (⟨2, ![K, B]⟩ : Shape) φ₂)
    (p : Fin A) (q : Fin B) :
    Host.dotGeneral (F := Ideal) D prec l r (ix2 p q) = ∑ k : Fin K, l (ix2 p k) * r (ix2 k q) := by
  show FloatOps.dotGeneral D prec .single l r (ix2 p q) = _
  rw [Ideal.dotGeneral_apply, ← Equiv.sum_comp (contrEquiv1 D K hD.rank hD.size).symm]
  refine Finset.sum_congr rfl fun k _ => ?_
  have hk := contrEquiv1_symm_val D K hD.rank hD.size k
  have el : D.lhsIdx (ix2 p q) ((contrEquiv1 D K hD.rank hD.size).symm k) = ix2 p k := funext fun a => Fin.ext (by
    match a with
    | ⟨0, _⟩ => exact hD.l0 _ _
    | ⟨1, _⟩ => exact (hD.l1 _ _).trans hk)
  have er : D.rhsIdx (ix2 p q) ((contrEquiv1 D K hD.rank hD.size).symm k) = ix2 k q := funext fun a => Fin.ext (by
    match a with
    | ⟨0, _⟩ => exact (hD.r0 _ _).trans hk
    | ⟨1, _⟩ => exact hD.r1 _ _)
  rw [el, er]

/-- Row `p` of the block `xb` is row `r p` of the array `x`. -/
def _root_.Idealize.ShloMosaic.Rows {a A n : Nat} {α : Type} (r : Fin a → Fin A)
    (xb : (⟨2, ![a, n]⟩ : Shape).Idx → α) (x : (⟨2, ![A, n]⟩ : Shape).Idx → α) : Prop :=
  ∀ (p : Fin a) (q : Fin n), xb (ix2 p q) = x (ix2 (r p) q)

variable {a A n : Nat} {r : Fin a → Fin A}

/-- The block's rows times a whole right operand are the product's rows: the kernel's product into a zero
    accumulator against the host's. -/
theorem matmul {K : Nat} {φ₁ φ₂ φ₁' φ₂' : FTy}
    (D : DotDims (⟨2, ![a, K]⟩ : Shape) (⟨2, ![K, n]⟩ : Shape) (⟨2, ![a, n]⟩ : Shape)) (hD : Plain D)
    (D' : DotDims (⟨2, ![A, K]⟩ : Shape) (⟨2, ![K, n]⟩ : Shape) (⟨2, ![A, n]⟩ : Shape)) (hD' : Plain D')
    (prec prec' : Option ContractPrecision)
    (lb : (⟨2, ![a, K]⟩ : Shape).Idx → EReal) (l : (⟨2, ![A, K]⟩ : Shape).Idx → EReal)
    (w w' : (⟨2, ![K, n]⟩ : Shape).Idx → EReal) (hl : Rows r lb l) (hw : w = w') :
    Rows r (FloatOps.matmul (F := Ideal) (φ₁ := φ₁) (φ₂ := φ₂) D prec lb w (constant (F := Ideal) (⟨2, ![a, n]⟩ : Shape) .f32 0x00000000#32))
      (Host.dotGeneral (F := Ideal) (φ₁ := φ₁') (φ₂ := φ₂') D' prec' l w') := by
  intro p q
  subst hw
  rw [matmul_zero_at D hD.rank hD.size hD.l0 hD.l1 hD.r0 hD.r1, dotGeneral_at D' hD']
  exact Finset.sum_congr rfl fun k _ => by rw [hl p k]

/-- Sums of rows. -/
theorem addf {φ φ' : FTy} {xb yb : FVec Ideal (⟨2, ![a, n]⟩ : Shape) φ} {x y : FVec Ideal (⟨2, ![A, n]⟩ : Shape) φ'}
    (hx : Rows r xb x) (hy : Rows r yb y) : Rows r (Idealize.ShloMosaic.addf xb yb) (Idealize.ShloMosaic.addf x y) :=
  fun p q => by show xb _ + yb _ = x _ + y _; rw [hx p q, hy p q]

/-- Products of rows, entry by entry. -/
theorem mulf {φ φ' : FTy} {xb yb : FVec Ideal (⟨2, ![a, n]⟩ : Shape) φ} {x y : FVec Ideal (⟨2, ![A, n]⟩ : Shape) φ'}
    (hx : Rows r xb x) (hy : Rows r yb y) : Rows r (Idealize.ShloMosaic.mulf xb yb) (Idealize.ShloMosaic.mulf x y) :=
  fun p q => by show xb _ * yb _ = x _ * y _; rw [hx p q, hy p q]

/-- The larger of two rows, entry by entry. -/
theorem maximumf {φ φ' : FTy} {xb yb : FVec Ideal (⟨2, ![a, n]⟩ : Shape) φ} {x y : FVec Ideal (⟨2, ![A, n]⟩ : Shape) φ'}
    (hx : Rows r xb x) (hy : Rows r yb y) : Rows r (Idealize.ShloMosaic.maximumf xb yb) (Idealize.ShloMosaic.maximumf x y) :=
  fun p q => by show max (xb _) (yb _) = max (x _) (y _); rw [hx p q, hy p q]

/-- A comparison of rows, entry by entry. -/
theorem cmpf {φ φ' : FTy} (pr : CmpFPredicate) {xb yb : FVec Ideal (⟨2, ![a, n]⟩ : Shape) φ} {x y : FVec Ideal (⟨2, ![A, n]⟩ : Shape) φ'}
    (hx : Rows r xb x) (hy : Rows r yb y) : Rows r (Idealize.ShloMosaic.cmpf pr xb yb) (Idealize.ShloMosaic.cmpf pr x y) :=
  fun p q => by show Ideal.cmp pr (xb _) (yb _) = Ideal.cmp pr (x _) (y _); rw [hx p q, hy p q]

/-- A choice between rows by a mask of rows. -/
theorem select {α : Type} {cb : IVec (⟨2, ![a, n]⟩ : Shape) 1} {c : IVec (⟨2, ![A, n]⟩ : Shape) 1}
    {xb yb : (⟨2, ![a, n]⟩ : Shape).Idx → α} {x y : (⟨2, ![A, n]⟩ : Shape).Idx → α}
    (hc : Rows r cb c) (hx : Rows r xb x) (hy : Rows r yb y) :
    Rows r (Idealize.ShloMosaic.select cb xb yb) (Idealize.ShloMosaic.select c x y) :=
  fun p q => by show Scalar.select (cb _) (xb _) (yb _) = Scalar.select (c _) (x _) (y _); rw [hc p q, hx p q, hy p q]

/-- A change of float format is the identity on the extended reals. -/
theorem truncf {φ ψ : FTy} {xb : FVec Ideal (⟨2, ![a, n]⟩ : Shape) φ} {x : (⟨2, ![A, n]⟩ : Shape).Idx → EReal}
    (h : ψ.bits < φ.bits) (hx : Rows r xb x) : Rows r (Idealize.ShloMosaic.truncf ψ xb h : FVec Ideal _ ψ) x :=
  fun p q => hx p q

/-- A cast to the same shape changes nothing. -/
theorem castSelf {α : Type} {xb : (⟨2, ![a, n]⟩ : Shape).Idx → α} {x : (⟨2, ![A, n]⟩ : Shape).Idx → α}
    (h : (⟨2, ![a, n]⟩ : Shape).ShapeCasts ⟨2, ![a, n]⟩) (hx : Rows r xb x) : Rows r (shapeCast ⟨2, ![a, n]⟩ xb h) x := by
  rw [Idealize.ShloMosaic.shapeCast_self]; exact hx

/-- A bias row: the kernel's [1, n] row broadcast down its block against the host's [n] vector broadcast to
    [1, n] and then down the array, when the row is the vector. -/
theorem bias {α : Type} (b1 : (⟨2, ![1, n]⟩ : Shape).Idx → α) (b : (⟨1, ![n]⟩ : Shape).Idx → α)
    (hb : ∀ q : Fin n, b1 (ix2 (0 : Fin 1) q) = b (ix1 q))
    (h1 : (⟨2, ![1, n]⟩ : Shape).ShapeCasts ⟨2, ![1, n]⟩) (h2 : (⟨2, ![1, n]⟩ : Shape).Broadcasts ⟨2, ![a, n]⟩)
    (h3 : (⟨2, ![1, n]⟩ : Shape).BroadcastsInDim ⟨2, ![A, n]⟩ ![0, 1]) (h4 : (⟨1, ![n]⟩ : Shape).BroadcastsInDim ⟨2, ![1, n]⟩ ![1]) :
    Rows r (broadcastTo ⟨2, ![a, n]⟩ (shapeCast ⟨2, ![1, n]⟩ b1 h1) h2)
      (broadcastInDim ⟨2, ![A, n]⟩ ![0, 1] h3 (broadcastInDim ⟨2, ![1, n]⟩ ![1] h4 b)) := by
  intro p q
  rw [Idealize.ShloMosaic.shapeCast_self, broadcastTo_1b_ab_apply, hb]
  symm
  rw [Idealize.ShloMosaic.broadcastInDim_apply ![0, 1] h3 _ (ix2 (r p) q) (ix2 (0 : Fin 1) q) (fun ax => by
    match ax with
    | ⟨0, _⟩ => rfl
    | ⟨1, _⟩ =>
      show q.val = if n = 1 then 0 else q.val
      split
      · have := q.isLt; omega
      · rfl)]
  exact Idealize.ShloMosaic.broadcastInDim_apply ![1] h4 b (ix2 (0 : Fin 1) q) (ix1 q) (fun ax => by
    match ax with
    | ⟨0, _⟩ =>
      show q.val = if n = 1 then 0 else q.val
      split
      · have := q.isLt; omega
      · rfl)

/-- A splat constant: the kernel's scalar broadcast over its block against the host's rank-0 constant broadcast over
    the array, the same word on both sides. -/
theorem const (w : BitVec 32) (h : (⟨0, ![]⟩ : Shape).BroadcastsInDim ⟨2, ![A, n]⟩ ![]) :
    Rows r (broadcast (⟨2, ![a, n]⟩ : Shape) (Scalar.ofBits (F := Ideal) .f32 w))
      (broadcastInDim ⟨2, ![A, n]⟩ ![] h (constant (F := Ideal) (⟨0, ![]⟩ : Shape) .f32 w)) := by
  intro p q
  symm
  exact Idealize.ShloMosaic.broadcastInDim_apply ![] h _ (ix2 (r p) q) ix0 (fun ax => ax.elim0)

end Idealize.ShloMosaic.Rows

end
-- ==== Proof.DotFacts.lean ====
/-
  The dimension numbers of every matrix product of the two programs are those of a plain product
  [A × K]·[K × B]: one contracted axis, the left operand read at (row, k), the right at (k, column).
-/
import proofs.«151210_g85950885527879_cont_sun_c4_601_3_alg».proof.Proof.Gen.KernelIdeal
import proofs.«151210_g85950885527879_cont_sun_c4_601_3_alg».proof.Proof.Gen.ReferenceIdeal
import proofs.«151210_g85950885527879_cont_sun_c4_601_3_alg».proof.Proof.LibRows

noncomputable section

namespace Cert.DotFacts

open Idealize.ShloMosaic Idealize.ShloMosaic.Rows

/-- The six facts of one record `D` whose operands have shapes `Sl` and `Sr`: the contracted shape by
    computation; the free axes by the membership tests the index maps branch on; the contracted ones by the
    library's lemma for a single contracted axis. -/
local macro "plain_of" D:term "," Sl:term "," Sr:term : term =>
  `({ rank := rfl
      size := rfl
      l0 := fun i q => by
        unfold DotDims.lhsIdx
        rw [dif_neg (show ¬(0 : Fin (Shape.rank $Sl)) ∈ DotDims.lhsBatch $D by decide),
          dif_pos (show (0 : Fin (Shape.rank $Sl)) ∈ DotDims.lhsNonContracting $D by decide)]
        rfl
      l1 := fun i q => DotDims.lhsIdx_val_of_single $D rfl i q
      r0 := fun i q => DotDims.rhsIdx_val_of_single $D rfl i q
      r1 := fun i q => by
        unfold DotDims.rhsIdx
        rw [dif_neg (show ¬(1 : Fin (Shape.rank $Sr)) ∈ DotDims.rhsBatch $D by decide),
          dif_pos (show (1 : Fin (Shape.rank $Sr)) ∈ DotDims.rhsNonContracting $D by decide)]
        rfl })

/-! ## The kernel's products -/

theorem k_10000_128_128 : Plain Cert.KernelIdeal.dot_S10000x128_S128x128_S10000x128_1_0_0_1_n_n :=
  plain_of Cert.KernelIdeal.dot_S10000x128_S128x128_S10000x128_1_0_0_1_n_n, Cert.KernelIdeal.S10000x128, Cert.KernelIdeal.S128x128
theorem k_200_10000_128 : Plain Cert.KernelIdeal.dot_S200x10000_S10000x128_S200x128_1_0_0_1_n_n :=
  plain_of Cert.KernelIdeal.dot_S200x10000_S10000x128_S200x128_1_0_0_1_n_n, Cert.KernelIdeal.S200x10000, Cert.KernelIdeal.S10000x128
theorem k_200_128_64 : Plain Cert.KernelIdeal.dot_S200x128_S128x64_S200x64_1_0_0_1_n_n :=
  plain_of Cert.KernelIdeal.dot_S200x128_S128x64_S200x64_1_0_0_1_n_n, Cert.KernelIdeal.S200x128, Cert.KernelIdeal.S128x64
theorem k_200_64_128 : Plain Cert.KernelIdeal.dot_S200x64_S64x128_S200x128_1_0_0_1_n_n :=
  plain_of Cert.KernelIdeal.dot_S200x64_S64x128_S200x128_1_0_0_1_n_n, Cert.KernelIdeal.S200x64, Cert.KernelIdeal.S64x128
theorem k_200_64_64 : Plain Cert.KernelIdeal.dot_S200x64_S64x64_S200x64_1_0_0_1_n_n :=
  plain_of Cert.KernelIdeal.dot_S200x64_S64x64_S200x64_1_0_0_1_n_n, Cert.KernelIdeal.S200x64, Cert.KernelIdeal.S64x64
theorem k_200_10000_64 : Plain Cert.KernelIdeal.dot_S200x10000_S10000x64_S200x64_1_0_0_1_n_n :=
  plain_of Cert.KernelIdeal.dot_S200x10000_S10000x64_S200x64_1_0_0_1_n_n, Cert.KernelIdeal.S200x10000, Cert.KernelIdeal.S10000x64
theorem k_200_64_32 : Plain Cert.KernelIdeal.dot_S200x64_S64x32_S200x32_1_0_0_1_n_n :=
  plain_of Cert.KernelIdeal.dot_S200x64_S64x32_S200x32_1_0_0_1_n_n, Cert.KernelIdeal.S200x64, Cert.KernelIdeal.S64x32
theorem k_200_32_32 : Plain Cert.KernelIdeal.dot_S200x32_S32x32_S200x32_1_0_0_1_n_n :=
  plain_of Cert.KernelIdeal.dot_S200x32_S32x32_S200x32_1_0_0_1_n_n, Cert.KernelIdeal.S200x32, Cert.KernelIdeal.S32x32
theorem k_200_10000_32 : Plain Cert.KernelIdeal.dot_S200x10000_S10000x32_S200x32_1_0_0_1_n_n :=
  plain_of Cert.KernelIdeal.dot_S200x10000_S10000x32_S200x32_1_0_0_1_n_n, Cert.KernelIdeal.S200x10000, Cert.KernelIdeal.S10000x32
theorem k_200_32_64 : Plain Cert.KernelIdeal.dot_S200x32_S32x64_S200x64_1_0_0_1_n_n :=
  plain_of Cert.KernelIdeal.dot_S200x32_S32x64_S200x64_1_0_0_1_n_n, Cert.KernelIdeal.S200x32, Cert.KernelIdeal.S32x64

/-! ## The reference's products -/

theorem r_10000_128_128 : Plain Cert.ReferenceIdeal.dot_S10000x128_S128x128_S10000x128_1_0_0_1_n_n :=
  plain_of Cert.ReferenceIdeal.dot_S10000x128_S128x128_S10000x128_1_0_0_1_n_n, Cert.ReferenceIdeal.S10000x128, Cert.ReferenceIdeal.S128x128
theorem r_10000_10000_128 : Plain Cert.ReferenceIdeal.dot_S10000x10000_S10000x128_S10000x128_1_0_0_1_n_n :=
  plain_of Cert.ReferenceIdeal.dot_S10000x10000_S10000x128_S10000x128_1_0_0_1_n_n, Cert.ReferenceIdeal.S10000x10000, Cert.ReferenceIdeal.S10000x128
theorem r_10000_128_64 : Plain Cert.ReferenceIdeal.dot_S10000x128_S128x64_S10000x64_1_0_0_1_n_n :=
  plain_of Cert.ReferenceIdeal.dot_S10000x128_S128x64_S10000x64_1_0_0_1_n_n, Cert.ReferenceIdeal.S10000x128, Cert.ReferenceIdeal.S128x64
theorem r_10000_64_128 : Plain Cert.ReferenceIdeal.dot_S10000x64_S64x128_S10000x128_1_0_0_1_n_n :=
  plain_of Cert.ReferenceIdeal.dot_S10000x64_S64x128_S10000x128_1_0_0_1_n_n, Cert.ReferenceIdeal.S10000x64, Cert.ReferenceIdeal.S64x128
theorem r_10000_64_64 : Plain Cert.ReferenceIdeal.dot_S10000x64_S64x64_S10000x64_1_0_0_1_n_n :=
  plain_of Cert.ReferenceIdeal.dot_S10000x64_S64x64_S10000x64_1_0_0_1_n_n, Cert.ReferenceIdeal.S10000x64, Cert.ReferenceIdeal.S64x64
theorem r_10000_10000_64 : Plain Cert.ReferenceIdeal.dot_S10000x10000_S10000x64_S10000x64_1_0_0_1_n_n :=
  plain_of Cert.ReferenceIdeal.dot_S10000x10000_S10000x64_S10000x64_1_0_0_1_n_n, Cert.ReferenceIdeal.S10000x10000, Cert.ReferenceIdeal.S10000x64
theorem r_10000_64_32 : Plain Cert.ReferenceIdeal.dot_S10000x64_S64x32_S10000x32_1_0_0_1_n_n :=
  plain_of Cert.ReferenceIdeal.dot_S10000x64_S64x32_S10000x32_1_0_0_1_n_n, Cert.ReferenceIdeal.S10000x64, Cert.ReferenceIdeal.S64x32
theorem r_10000_32_32 : Plain Cert.ReferenceIdeal.dot_S10000x32_S32x32_S10000x32_1_0_0_1_n_n :=
  plain_of Cert.ReferenceIdeal.dot_S10000x32_S32x32_S10000x32_1_0_0_1_n_n, Cert.ReferenceIdeal.S10000x32, Cert.ReferenceIdeal.S32x32
theorem r_10000_10000_32 : Plain Cert.ReferenceIdeal.dot_S10000x10000_S10000x32_S10000x32_1_0_0_1_n_n :=
  plain_of Cert.ReferenceIdeal.dot_S10000x10000_S10000x32_S10000x32_1_0_0_1_n_n, Cert.ReferenceIdeal.S10000x10000, Cert.ReferenceIdeal.S10000x32
theorem r_10000_32_64 : Plain Cert.ReferenceIdeal.dot_S10000x32_S32x64_S10000x64_1_0_0_1_n_n :=
  plain_of Cert.ReferenceIdeal.dot_S10000x32_S32x64_S10000x64_1_0_0_1_n_n, Cert.ReferenceIdeal.S10000x32, Cert.ReferenceIdeal.S32x64

end Cert.DotFacts

end
-- ==== Proof.Region0.lean ====
/-
  The first support, read off the kernel's run: the first pallas_call has no grid, so its one point holds every
  array whole. Its body computes `(x · W_lin1 + b_lin1) · W_gc1` with the kernel's matrix product into a zero
  accumulator, which entry by entry is the host's product, and a bias row broadcast down the rows; so the one
  block it writes back is the whole-array first support `Spec.s1`.
-/
import proofs.«151210_g85950885527879_cont_sun_c4_601_3_alg».proof.Proof.Gen.KernelIdeal.Frame
import proofs.«151210_g85950885527879_cont_sun_c4_601_3_alg».proof.Proof.Spec
import proofs.«151210_g85950885527879_cont_sun_c4_601_3_alg».proof.Proof.LibRows
import proofs.«151210_g85950885527879_cont_sun_c4_601_3_alg».proof.Proof.DotFacts

set_option maxRecDepth 16384

noncomputable section

namespace Cert.KernelIdeal.Step0

open Cert.KernelIdeal Cert.KernelIdeal.Gen Cert.KernelIdeal.Facts₀ Idealize.ShloMosaic Idealize.ShloMosaic.TcCoe Idealize.SL.Sem
open Idealize.ShloMosaic.ValueIdx
open Idealize.ShloMosaic.Pipeline (Dat Cfg)

/-- The body's stored value, row by row, is the whole-array first support (every row is its own row). -/
theorem pay_rows (xb : Vec Ideal S10000x128 .f32) (w3 : Vec Ideal S128x128 .f32)
    (b0 : Vec Ideal S1x128 .f32) (x4 : Spec.Arr Cert.ReferenceIdeal.S128) (h0 : ∀ q : Fin 128, b0 (ix2 (0 : Fin 1) q) = x4 (ix1 q))
    (w5 : Vec Ideal S128x128 .f32) :
    Rows (fun p : Fin 10000 => p) (k0_pay1 (F := Ideal) xb w3 b0 w5) (Spec.s1 xb w3 x4 w5) := by
  unfold k0_pay1 Spec.s1 Spec.bias128
  refine Rows.truncf _ (Rows.matmul _ DotFacts.k_10000_128_128 _ DotFacts.r_10000_128_128 none none _ _ _ _ ?_ rfl)
  exact Rows.addf (Rows.matmul _ DotFacts.k_10000_128_128 _ DotFacts.r_10000_128_128 none none _ _ _ _ (fun p q => rfl) rfl)
    (Rows.bias b0 x4 h0 _ _ _ _)

/-! ## The one point: every window's block is its whole array -/

theorem hz : (![0, 0] : Fin 2 → Nat) = fun _ => 0 := funext fun a => by fin_cases a <;> rfl

theorem idx_0 : ∀ t : Fin cfg0.N, win0_0.index t (0 : Fin 2) = 0 ∧ win0_0.index t (1 : Fin 2) = 0 :=
  (by decide +kernel : ∀ t : Fin grid0.N, _)
theorem idx_1 : ∀ t : Fin cfg0.N, win0_1.index t (0 : Fin 2) = 0 ∧ win0_1.index t (1 : Fin 2) = 0 :=
  (by decide +kernel : ∀ t : Fin grid0.N, _)
theorem idx_2 : ∀ t : Fin cfg0.N, win0_2.index t (0 : Fin 2) = 0 ∧ win0_2.index t (1 : Fin 2) = 0 :=
  (by decide +kernel : ∀ t : Fin grid0.N, _)
theorem idx_3 : ∀ t : Fin cfg0.N, win0_3.index t (0 : Fin 2) = 0 ∧ win0_3.index t (1 : Fin 2) = 0 :=
  (by decide +kernel : ∀ t : Fin grid0.N, _)
theorem idx_4 : ∀ t : Fin cfg0.N, win0_4.index t (0 : Fin 2) = 0 ∧ win0_4.index t (1 : Fin 2) = 0 :=
  (by decide +kernel : ∀ t : Fin grid0.N, _)

variable (V : (c : Dev nD) → (b : Ref sig .tc) → Buf (Elt Ideal) ((c : Thread nD τ).loc b))

theorem whole_0 (c : Dev nD) (t : Fin cfg0.N) : iblk0 V c 0 t = V c main_arg0 := by
  obtain ⟨e0, e1⟩ := idx_0 t
  funext y
  show V c main_arg0 (((cfg0.win 0).blk t).view.emb y) = V c main_arg0 y
  refine congrArg _ (funext fun a => Fin.ext ?_)
  match a with
  | ⟨0, _⟩ => show win0_0.index t (0 : Fin 2) * 10000 + 1 * (y 0).val = (y 0).val; omega
  | ⟨1, _⟩ => show win0_0.index t (1 : Fin 2) * 128 + 1 * (y 1).val = (y 1).val; omega

theorem whole_1 (c : Dev nD) (t : Fin cfg0.N) : iblk0 V c 1 t = V c main_arg3 := by
  obtain ⟨e0, e1⟩ := idx_1 t
  funext y
  show V c main_arg3 (((cfg0.win 1).blk t).view.emb y) = V c main_arg3 y
  refine congrArg _ (funext fun a => Fin.ext ?_)
  match a with
  | ⟨0, _⟩ => show win0_1.index t (0 : Fin 2) * 128 + 1 * (y 0).val = (y 0).val; omega
  | ⟨1, _⟩ => show win0_1.index t (1 : Fin 2) * 128 + 1 * (y 1).val = (y 1).val; omega

theorem whole_2 (c : Dev nD) (t : Fin cfg0.N) : iblk0 V c 2 t = V c main_v0 := by
  obtain ⟨e0, e1⟩ := idx_2 t
  funext y
  show V c main_v0 (((cfg0.win 2).blk t).view.emb y) = V c main_v0 y
  refine congrArg _ (funext fun a => Fin.ext ?_)
  match a with
  | ⟨0, _⟩ => show win0_2.index t (0 : Fin 2) * 1 + 1 * (y 0).val = (y 0).val; omega
  | ⟨1, _⟩ => show win0_2.index t (1 : Fin 2) * 128 + 1 * (y 1).val = (y 1).val; omega

theorem whole_3 (c : Dev nD) (t : Fin cfg0.N) : iblk0 V c 3 t = V c main_arg5 := by
  obtain ⟨e0, e1⟩ := idx_3 t
  funext y
  show V c main_arg5 (((cfg0.win 3).blk t).view.emb y) = V c main_arg5 y
  refine congrArg _ (funext fun a => Fin.ext ?_)
  match a with
  | ⟨0, _⟩ => show win0_3.index t (0 : Fin 2) * 128 + 1 * (y 0).val = (y 0).val; omega
  | ⟨1, _⟩ => show win0_3.index t (1 : Fin 2) * 128 + 1 * (y 1).val = (y 1).val; omega

/-! ## What the point writes back, and the array after the run -/

/-- What the point writes back is the whole-array first support of the arrays the region is entered with, the bias
    row being the reshaped bias vector `x4`. -/
theorem flushed_eq (c : Dev nD) (x4 : Spec.Arr Cert.ReferenceIdeal.S128)
    (h0 : ∀ q : Fin 128, V c main_v0 (ix2 (0 : Fin 1) q) = x4 (ix1 q)) (t : Fin cfg0.N) :
    (dat0 V c).flushed 4 t
      = ((cfg0.win 4).blk t).view.read (Elt Ideal) (Spec.s1 (V c main_arg0) (V c main_arg3) x4 (V c main_arg5)) := by
  show (cfg0.win 4).cut (grid0.coords t) ((dat0 V c).after 4 t) = _
  rw [after0_4]
  unfold out0_4
  rw [View.canon_unit_zero hz]
  simp only [View.ld_unit_zero (S := S10000x128) hz, View.ld_unit_zero (S := S128x128) hz, View.ld_unit_zero (S := S1x128) hz]
  rw [whole_0, whole_1, whole_2, whole_3]
  obtain ⟨e0, e1⟩ := idx_4 t
  funext y
  obtain ⟨p, q, rfl⟩ : ∃ (p : Fin 10000) (q : Fin 128), y = ix2 p q := ⟨y 0, y 1, eq_ix2 y⟩
  refine (pay_rows _ _ _ x4 h0 _ p q).trans ?_
  show _ = Spec.s1 (V c main_arg0) (V c main_arg3) x4 (V c main_arg5) (((cfg0.win 4).blk t).view.emb (ix2 p q))
  refine congrArg _ (funext fun a => Fin.ext ?_)
  match a with
  | ⟨0, _⟩ => show p.val = win0_4.index t (0 : Fin 2) * 10000 + 1 * p.val; omega
  | ⟨1, _⟩ => show q.val = win0_4.index t (1 : Fin 2) * 128 + 1 * q.val; omega

/-- An index of the support's array is in the point's block iff each coordinate is in the block's range. -/
theorem mem_blk (t : Fin cfg0.N) (i : S10000x128.Idx) :
    i ∈ ((cfg0.win 4).blk t).view.set ↔ ∀ a : Fin 2, win0_4.index t a * S10000x128.size a ≤ (i a).val ∧ (i a).val < win0_4.index t a * S10000x128.size a + S10000x128.size a := by
  show i ∈ ((View.whole main_v10).slice (win0_4.rect t)).set ↔ _
  rw [View.set_slice_whole, Rect.mem_set_unit]
  exact Iff.rfl

/-- The one block is the whole array. -/
theorem cover (i : S10000x128.Idx) : ∃ t : Fin cfg0.N, (cfg0.win 4).flush t = true ∧ i ∈ ((cfg0.win 4).blk t).view.set := by
  have hi0 : (i 0).val < 10000 := (i 0).isLt
  have hi1 : (i 1).val < 128 := (i 1).isLt
  obtain ⟨e0, e1⟩ := idx_4 t0_0
  refine ⟨t0_0, flush0_4 t0_0, ?_⟩
  rw [mem_blk]
  intro a
  match a with
  | ⟨0, _⟩ => show win0_4.index t0_0 (0 : Fin 2) * 10000 ≤ (i 0).val ∧ (i 0).val < win0_4.index t0_0 (0 : Fin 2) * 10000 + 10000; omega
  | ⟨1, _⟩ => show win0_4.index t0_0 (1 : Fin 2) * 128 ≤ (i 1).val ∧ (i 1).val < win0_4.index t0_0 (1 : Fin 2) * 128 + 128; omega

/-- THE FIRST SUPPORT's array after the region: the whole-array function of the arrays the region is entered with. -/
theorem final (c : Dev nD) (x4 : Spec.Arr Cert.ReferenceIdeal.S128)
    (h0 : ∀ q : Fin 128, V c main_v0 (ix2 (0 : Fin 1) q) = x4 (ix1 q)) :
    (dat0 V c).arrAt 4 cfg0.N = Spec.s1 (V c main_arg0) (V c main_arg3) x4 (V c main_arg5) :=
  (dat0 V c).arrAt_eq_of_cover 4 _ (fun t _ => flushed_eq V c x4 h0 t) cover

end Cert.KernelIdeal.Step0

end
-- ==== Proof.Region1.lean ====
/-
  The first propagation step, read off the kernel's run: at block `t` of the 50 blocks of 200 rows the body forms
  rows `200 t …` of the weighted adjacency `adj ∘ dis` (its first result), multiplies them by the whole first
  support, adds a bias row, runs the four dense layers of the perceptron (its second result, the residual branch)
  and multiplies by one more weight matrix (its third result, the second support). Each of these commutes with
  taking rows, so what block `t` writes back to each of the three arrays is rows `200 t …` of the whole-array
  functions `Spec.P`, `Spec.res` and `Spec.s2`, and the 50 blocks tile each array.
-/
import proofs.«151210_g85950885527879_cont_sun_c4_601_3_alg».proof.Proof.Gen.KernelIdeal.Frame
import proofs.«151210_g85950885527879_cont_sun_c4_601_3_alg».proof.Proof.Spec
import proofs.«151210_g85950885527879_cont_sun_c4_601_3_alg».proof.Proof.LibRows
import proofs.«151210_g85950885527879_cont_sun_c4_601_3_alg».proof.Proof.DotFacts

set_option maxRecDepth 16384

noncomputable section

namespace Cert.KernelIdeal.Step1

open Cert.KernelIdeal Cert.KernelIdeal.Gen Cert.KernelIdeal.Facts₀ Idealize.ShloMosaic Idealize.ShloMosaic.TcCoe Idealize.SL.Sem
open Idealize.ShloMosaic.ValueIdx
open Idealize.ShloMosaic.Pipeline (Dat Cfg)

/-! ## The body's values on a block of rows -/

/-- The product block is the same rows of the weighted adjacency. -/
theorem pay3_rows (r : Fin 200 → Fin 10000)
    (ab : Vec Ideal S200x10000 .f32) (x1 : Spec.Arr Cert.ReferenceIdeal.S10000x10000) (ha : Rows r ab x1)
    (db : Vec Ideal S200x10000 .f32) (x2 : Spec.Arr Cert.ReferenceIdeal.S10000x10000) (hd : Rows r db x2) :
    Rows r (k1_pay3 (F := Ideal) ab db) (Spec.P x1 x2) := by
  unfold k1_pay3 Spec.P
  refine Rows.truncf _ ?_
  exact Rows.mulf (φ' := .f32) ha hd

/-- The second layer before its activation, on a block of rows. -/
theorem pay4_rows (r : Fin 200 → Fin 10000)
    (ab : Vec Ideal S200x10000 .f32) (x1 : Spec.Arr Cert.ReferenceIdeal.S10000x10000) (ha : Rows r ab x1)
    (db : Vec Ideal S200x10000 .f32) (x2 : Spec.Arr Cert.ReferenceIdeal.S10000x10000) (hd : Rows r db x2)
    (sup : Vec Ideal S10000x128 .bf16)
    (b1 : Vec Ideal S1x128 .f32) (x6 : Spec.Arr Cert.ReferenceIdeal.S128) (h1 : ∀ q : Fin 128, b1 (ix2 (0 : Fin 1) q) = x6 (ix1 q))
    (w7 : Vec Ideal S128x64 .f32)
    (b2 : Vec Ideal S1x64 .f32) (x8 : Spec.Arr Cert.ReferenceIdeal.S64) (h2 : ∀ q : Fin 64, b2 (ix2 (0 : Fin 1) q) = x8 (ix1 q))
    (w9 : Vec Ideal S64x128 .f32)
    (b3 : Vec Ideal S1x128 .f32) (x10 : Spec.Arr Cert.ReferenceIdeal.S128) (h3 : ∀ q : Fin 128, b3 (ix2 (0 : Fin 1) q) = x10 (ix1 q)) :
    Rows r (k1_pay4 (F := Ideal) ab db sup b1 w7 b2 w9 b3) (Spec.z2 (Spec.P x1 x2) sup x6 w7 x8 w9 x10) := by
  unfold k1_pay4 Spec.z2 Spec.leaky64 Spec.bias128 Spec.bias64
  refine Rows.addf (Rows.matmul _ DotFacts.k_200_64_128 _ DotFacts.r_10000_64_128 none none _ _ _ _ ?_ rfl) (Rows.bias b3 x10 h3 _ _ _ _)
  refine Rows.select (Rows.cmpf .ogt ?h (Rows.const _ _)) ?h (Rows.mulf (Rows.const _ _) ?h)
  refine Rows.addf (Rows.matmul _ DotFacts.k_200_128_64 _ DotFacts.r_10000_128_64 none none _ _ _ _ ?_ rfl) (Rows.bias b2 x8 h2 _ _ _ _)
  exact Rows.addf (Rows.matmul _ DotFacts.k_200_10000_128 _ DotFacts.r_10000_10000_128 none none _ _ _ _
    (pay3_rows r ab x1 ha db x2 hd) (shapeCast_self _ _)) (Rows.bias b1 x6 h1 _ _ _ _)

/-- The residual branch on a block of rows, from the second layer's pre-activation `z`, its sign test and its
    scaled copy (the three values the body's first half hands to its second). -/
theorem pay1_rows (r : Fin 200 → Fin 10000)
    (zb : FVec Ideal S200x128 .f32) (z : Spec.Arr Cert.ReferenceIdeal.S10000x128) (hz : Rows r zb z)
    (w11 : Vec Ideal S128x64 .f32)
    (b4 : Vec Ideal S1x64 .f32) (x12 : Spec.Arr Cert.ReferenceIdeal.S64) (h4 : ∀ q : Fin 64, b4 (ix2 (0 : Fin 1) q) = x12 (ix1 q))
    (w13 : Vec Ideal S64x64 .f32)
    (b5 : Vec Ideal S1x64 .f32) (x14 : Spec.Arr Cert.ReferenceIdeal.S64) (h5 : ∀ q : Fin 64, b5 (ix2 (0 : Fin 1) q) = x14 (ix1 q)) :
    Rows r (k1_pay1 (F := Ideal) zb
        (cmpf .ogt zb (broadcast S200x128 (Scalar.ofBits (F := Ideal) .f32 0x00000000#32)))
        (mulf (broadcast S200x128 (Scalar.ofBits (F := Ideal) .f32 0x3E4CCCCD#32)) zb) w11 b4 w13 b5)
      (Spec.resOf z w11 x12 w13 x14) := by
  unfold k1_pay1 Spec.resOf Spec.relu64 Spec.leaky64 Spec.leaky128 Spec.bias64
  refine Rows.maximumf (Rows.addf (Rows.matmul _ DotFacts.k_200_64_64 _ DotFacts.r_10000_64_64 none none _ _ _ _ ?_ rfl)
    (Rows.bias b5 x14 h5 _ _ _ _)) (Rows.const _ _)
  refine Rows.select (Rows.cmpf .ogt ?h (Rows.const _ _)) ?h (Rows.mulf (Rows.const _ _) ?h)
  refine Rows.addf (Rows.matmul _ DotFacts.k_200_128_64 _ DotFacts.r_10000_128_64 none none _ _ _ _ ?_ rfl) (Rows.bias b4 x12 h4 _ _ _ _)
  exact Rows.select (Rows.cmpf .ogt hz (Rows.const _ _)) hz (Rows.mulf (Rows.const _ _) hz)

/-- The second support on a block of rows, from the residual branch on it. -/
theorem pay2_rows (r : Fin 200 → Fin 10000)
    (zb : FVec Ideal S200x128 .f32) (zc : IVec S200x128 1) (zs : FVec Ideal S200x128 .f32)
    (w11 : Vec Ideal S128x64 .f32) (b4 : Vec Ideal S1x64 .f32) (w13 : Vec Ideal S64x64 .f32) (b5 : Vec Ideal S1x64 .f32)
    (rs : Spec.Arr Cert.ReferenceIdeal.S10000x64) (hr : Rows r (k1_pay1 (F := Ideal) zb zc zs w11 b4 w13 b5) rs)
    (w15 : Vec Ideal S64x64 .f32) :
    Rows r (k1_pay2 (F := Ideal) zb zc zs w11 b4 w13 b5 w15) (Spec.s2 rs w15) := by
  unfold k1_pay2 Spec.s2
  exact Rows.truncf _ (Rows.matmul _ DotFacts.k_200_64_64 _ DotFacts.r_10000_64_64 none none _ _ _ _ hr rfl)

/-! ## The grid: block `t` of the row-blocked windows starts at row `200 t`; every other window is its whole array -/

theorem hz : (![0, 0] : Fin 2 → Nat) = fun _ => 0 := funext fun a => by fin_cases a <;> rfl

/-- The printed index maps over the 50 grid points, window by window: the two matrix inputs and the three results
    move with the point, every other window stays at its one block. -/
theorem idx_0 : ∀ t : Fin cfg1.N, win1_0.index t (0 : Fin 2) = t.val ∧ win1_0.index t (1 : Fin 2) = 0 :=
  (by decide +kernel : ∀ t : Fin grid1.N, _)
theorem idx_1 : ∀ t : Fin cfg1.N, win1_1.index t (0 : Fin 2) = t.val ∧ win1_1.index t (1 : Fin 2) = 0 :=
  (by decide +kernel : ∀ t : Fin grid1.N, _)
theorem idx_2 : ∀ t : Fin cfg1.N, win1_2.index t (0 : Fin 2) = 0 ∧ win1_2.index t (1 : Fin 2) = 0 :=
  (by decide +kernel : ∀ t : Fin grid1.N, _)
theorem idx_3 : ∀ t : Fin cfg1.N, win1_3.index t (0 : Fin 2) = 0 ∧ win1_3.index t (1 : Fin 2) = 0 :=
  (by decide +kernel : ∀ t : Fin grid1.N, _)
theorem idx_4 : ∀ t : Fin cfg1.N, win1_4.index t (0 : Fin 2) = 0 ∧ win1_4.index t (1 : Fin 2) = 0 :=
  (by decide +kernel : ∀ t : Fin grid1.N, _)
theorem idx_5 : ∀ t : Fin cfg1.N, win1_5.index t (0 : Fin 2) = 0 ∧ win1_5.index t (1 : Fin 2) = 0 :=
  (by decide +kernel : ∀ t : Fin grid1.N, _)
theorem idx_6 : ∀ t : Fin cfg1.N, win1_6.index t (0 : Fin 2) = 0 ∧ win1_6.index t (1 : Fin 2) = 0 :=
  (by decide +kernel : ∀ t : Fin grid1.N, _)
theorem idx_7 : ∀ t : Fin cfg1.N, win1_7.index t (0 : Fin 2) = 0 ∧ win1_7.index t (1 : Fin 2) = 0 :=
  (by decide +kernel : ∀ t : Fin grid1.N, _)
theorem idx_8 : ∀ t : Fin cfg1.N, win1_8.index t (0 : Fin 2) = 0 ∧ win1_8.index t (1 : Fin 2) = 0 :=
  (by decide +kernel : ∀ t : Fin grid1.N, _)
theorem idx_9 : ∀ t : Fin cfg1.N, win1_9.index t (0 : Fin 2) = 0 ∧ win1_9.index t (1 : Fin 2) = 0 :=
  (by decide +kernel : ∀ t : Fin grid1.N, _)
theorem idx_10 : ∀ t : Fin cfg1.N, win1_10.index t (0 : Fin 2) = 0 ∧ win1_10.index t (1 : Fin 2) = 0 :=
  (by decide +kernel : ∀ t : Fin grid1.N, _)
theorem idx_11 : ∀ t : Fin cfg1.N, win1_11.index t (0 : Fin 2) = 0 ∧ win1_11.index t (1 : Fin 2) = 0 :=
  (by decide +kernel : ∀ t : Fin grid1.N, _)
theorem idx_12 : ∀ t : Fin cfg1.N, win1_12.index t (0 : Fin 2) = 0 ∧ win1_12.index t (1 : Fin 2) = 0 :=
  (by decide +kernel : ∀ t : Fin grid1.N, _)
theorem idx_13 : ∀ t : Fin cfg1.N, win1_13.index t (0 : Fin 2) = t.val ∧ win1_13.index t (1 : Fin 2) = 0 :=
  (by decide +kernel : ∀ t : Fin grid1.N, _)
theorem idx_14 : ∀ t : Fin cfg1.N, win1_14.index t (0 : Fin 2) = t.val ∧ win1_14.index t (1 : Fin 2) = 0 :=
  (by decide +kernel : ∀ t : Fin grid1.N, _)
theorem idx_15 : ∀ t : Fin cfg1.N, win1_15.index t (0 : Fin 2) = t.val ∧ win1_15.index t (1 : Fin 2) = 0 :=
  (by decide +kernel : ∀ t : Fin grid1.N, _)

theorem t_lt (t : Fin cfg1.N) : t.val < 50 := lt_of_lt_of_eq t.isLt N_1

/-- Row `p` of block `t` is row `200 t + p` of the array. -/
def row (t : Fin cfg1.N) (p : Fin 200) : Fin 10000 := ⟨t.val * 200 + p.val, by have := t_lt t; have := p.isLt; omega⟩

/-- A window that stays at its one block (`e`: both block indices are 0) holds its whole array `f`: a block's
    coordinate is index × size + the coordinate inside the block, here the coordinate itself. `s0`, `s1` are the
    block's extents. -/
local macro "whole_block" f:term "," cw:term "," W:term "," e:term "," t:term "," s0:num "," s1:num : tactic =>
  `(tactic| (
    obtain ⟨e0, e1⟩ := $e
    funext y
    show $f ((($cw).blk $t).view.emb y) = $f y
    refine congrArg _ (funext fun a => Fin.ext ?_)
    match a with
    | ⟨0, _⟩ => show ($W).index $t (0 : Fin 2) * $s0 + 1 * (y 0).val = (y 0).val; omega
    | ⟨1, _⟩ => show ($W).index $t (1 : Fin 2) * $s1 + 1 * (y 1).val = (y 1).val; omega))

/-- A window of 200 whole rows that moves with the point (`e`: block index `(t, 0)`) holds rows `200 t …` of its
    array `f`; `s1` is the row length. -/
local macro "rows_block" f:term "," cw:term "," W:term "," e:term "," t:term "," s1:num : tactic =>
  `(tactic| (
    intro p q
    obtain ⟨e0, e1⟩ := $e
    show $f ((($cw).blk $t).view.emb (ix2 p q)) = $f (ix2 (row $t p) q)
    refine congrArg _ (funext fun a => Fin.ext ?_)
    match a with
    | ⟨0, _⟩ => show ($W).index $t (0 : Fin 2) * 200 + 1 * p.val = ($t).val * 200 + p.val; omega
    | ⟨1, _⟩ => show ($W).index $t (1 : Fin 2) * $s1 + 1 * q.val = q.val; omega))

variable (V : (c : Dev nD) → (b : Ref sig .tc) → Buf (Elt Ideal) ((c : Thread nD τ).loc b))

theorem rows_0 (c : Dev nD) (t : Fin cfg1.N) : Rows (row t) (iblk1 V c 0 t) (V c main_arg1) := by
  rows_block V c main_arg1, cfg1.win 0, win1_0, idx_0 t, t, 10000
theorem rows_1 (c : Dev nD) (t : Fin cfg1.N) : Rows (row t) (iblk1 V c 1 t) (V c main_arg2) := by
  rows_block V c main_arg2, cfg1.win 1, win1_1, idx_1 t, t, 10000
theorem whole_2 (c : Dev nD) (t : Fin cfg1.N) : iblk1 V c 2 t = V c main_v10 := by
  whole_block V c main_v10, cfg1.win 2, win1_2, idx_2 t, t, 10000, 128
theorem whole_3 (c : Dev nD) (t : Fin cfg1.N) : iblk1 V c 3 t = V c main_v1 := by
  whole_block V c main_v1, cfg1.win 3, win1_3, idx_3 t, t, 1, 128
theorem whole_4 (c : Dev nD) (t : Fin cfg1.N) : iblk1 V c 4 t = V c main_arg7 := by
  whole_block V c main_arg7, cfg1.win 4, win1_4, idx_4 t, t, 128, 64
theorem whole_5 (c : Dev nD) (t : Fin cfg1.N) : iblk1 V c 5 t = V c main_v2 := by
  whole_block V c main_v2, cfg1.win 5, win1_5, idx_5 t, t, 1, 64
theorem whole_6 (c : Dev nD) (t : Fin cfg1.N) : iblk1 V c 6 t = V c main_arg9 := by
  whole_block V c main_arg9, cfg1.win 6, win1_6, idx_6 t, t, 64, 128
theorem whole_7 (c : Dev nD) (t : Fin cfg1.N) : iblk1 V c 7 t = V c main_v3 := by
  whole_block V c main_v3, cfg1.win 7, win1_7, idx_7 t, t, 1, 128
theorem whole_8 (c : Dev nD) (t : Fin cfg1.N) : iblk1 V c 8 t = V c main_arg11 := by
  whole_block V c main_arg11, cfg1.win 8, win1_8, idx_8 t, t, 128, 64
theorem whole_9 (c : Dev nD) (t : Fin cfg1.N) : iblk1 V c 9 t = V c main_v4 := by
  whole_block V c main_v4, cfg1.win 9, win1_9, idx_9 t, t, 1, 64
theorem whole_10 (c : Dev nD) (t : Fin cfg1.N) : iblk1 V c 10 t = V c main_arg13 := by
  whole_block V c main_arg13, cfg1.win 10, win1_10, idx_10 t, t, 64, 64
theorem whole_11 (c : Dev nD) (t : Fin cfg1.N) : iblk1 V c 11 t = V c main_v5 := by
  whole_block V c main_v5, cfg1.win 11, win1_11, idx_11 t, t, 1, 64
theorem whole_12 (c : Dev nD) (t : Fin cfg1.N) : iblk1 V c 12 t = V c main_arg15 := by
  whole_block V c main_arg15, cfg1.win 12, win1_12, idx_12 t, t, 64, 64

/-! ## What a point writes back to each of the three arrays -/

section
variable (c : Dev nD)
  (x6 : Spec.Arr Cert.ReferenceIdeal.S128) (x8 : Spec.Arr Cert.ReferenceIdeal.S64) (x10 : Spec.Arr Cert.ReferenceIdeal.S128)
  (x12 : Spec.Arr Cert.ReferenceIdeal.S64) (x14 : Spec.Arr Cert.ReferenceIdeal.S64)
  (h1 : ∀ q : Fin 128, V c main_v1 (ix2 (0 : Fin 1) q) = x6 (ix1 q))
  (h2 : ∀ q : Fin 64, V c main_v2 (ix2 (0 : Fin 1) q) = x8 (ix1 q))
  (h3 : ∀ q : Fin 128, V c main_v3 (ix2 (0 : Fin 1) q) = x10 (ix1 q))
  (h4 : ∀ q : Fin 64, V c main_v4 (ix2 (0 : Fin 1) q) = x12 (ix1 q))
  (h5 : ∀ q : Fin 64, V c main_v5 (ix2 (0 : Fin 1) q) = x14 (ix1 q))

/-- The residual branch as a function of the arrays the region is entered with. -/
abbrev resV : Spec.Arr Cert.ReferenceIdeal.S10000x64 :=
  Spec.res (Spec.P (V c main_arg1) (V c main_arg2)) (V c main_v10) x6 (V c main_arg7) x8 (V c main_arg9) x10 (V c main_arg11) x12
    (V c main_arg13) x14

/-- To the weighted adjacency's array point `t` writes block `t` of `adj ∘ dis`. -/
theorem flushed_13 (t : Fin cfg1.N) :
    (dat1 V c).flushed 13 t = ((cfg1.win 13).blk t).view.read (Elt Ideal) (Spec.P (V c main_arg1) (V c main_arg2)) := by
  show (cfg1.win 13).cut (grid1.coords t) ((dat1 V c).after 13 t) = _
  rw [after1_13]
  unfold out1_13
  rw [View.canon_unit_zero hz]
  simp only [View.ld_unit_zero (S := S200x10000) hz]
  obtain ⟨e0, e1⟩ := idx_13 t
  funext y
  obtain ⟨p, q, rfl⟩ : ∃ (p : Fin 200) (q : Fin 10000), y = ix2 p q := ⟨y 0, y 1, eq_ix2 y⟩
  refine (pay3_rows (row t) _ _ (rows_0 V c t) _ _ (rows_1 V c t) p q).trans ?_
  show _ = Spec.P (V c main_arg1) (V c main_arg2) (((cfg1.win 13).blk t).view.emb (ix2 p q))
  refine congrArg _ (funext fun a => Fin.ext ?_)
  match a with
  | ⟨0, _⟩ => show t.val * 200 + p.val = win1_13.index t (0 : Fin 2) * 200 + 1 * p.val; omega
  | ⟨1, _⟩ => show q.val = win1_13.index t (1 : Fin 2) * 10000 + 1 * q.val; omega

include h1 h2 h3 h4 h5 in
/-- To the residual branch's array point `t` writes block `t` of the whole-array residual branch. -/
theorem flushed_14 (t : Fin cfg1.N) :
    (dat1 V c).flushed 14 t = ((cfg1.win 14).blk t).view.read (Elt Ideal) (resV V c x6 x8 x10 x12 x14) := by
  show (cfg1.win 14).cut (grid1.coords t) ((dat1 V c).after 14 t) = _
  rw [after1_14]
  unfold out1_14
  rw [View.canon_unit_zero hz]
  simp only [View.ld_unit_zero (S := S200x10000) hz, View.ld_unit_zero (S := S10000x128) hz, View.ld_unit_zero (S := S1x128) hz,
    View.ld_unit_zero (S := S128x64) hz, View.ld_unit_zero (S := S1x64) hz, View.ld_unit_zero (S := S64x128) hz,
    View.ld_unit_zero (S := S64x64) hz]
  rw [whole_2, whole_3, whole_4, whole_5, whole_6, whole_7, whole_8, whole_9, whole_10, whole_11]
  obtain ⟨e0, e1⟩ := idx_14 t
  funext y
  obtain ⟨p, q, rfl⟩ : ∃ (p : Fin 200) (q : Fin 64), y = ix2 p q := ⟨y 0, y 1, eq_ix2 y⟩
  refine (pay1_rows (row t) _ _
    (pay4_rows (row t) _ _ (rows_0 V c t) _ _ (rows_1 V c t) _ _ x6 h1 _ _ x8 h2 _ _ x10 h3) _ _ x12 h4 _ _ x14 h5 p q).trans ?_
  show _ = resV V c x6 x8 x10 x12 x14 (((cfg1.win 14).blk t).view.emb (ix2 p q))
  refine congrArg _ (funext fun a => Fin.ext ?_)
  match a with
  | ⟨0, _⟩ => show t.val * 200 + p.val = win1_14.index t (0 : Fin 2) * 200 + 1 * p.val; omega
  | ⟨1, _⟩ => show q.val = win1_14.index t (1 : Fin 2) * 64 + 1 * q.val; omega

include h1 h2 h3 h4 h5 in
/-- To the second support's array point `t` writes block `t` of the whole-array second support. -/
theorem flushed_15 (t : Fin cfg1.N) :
    (dat1 V c).flushed 15 t
      = ((cfg1.win 15).blk t).view.read (Elt Ideal) (Spec.s2 (resV V c x6 x8 x10 x12 x14) (V c main_arg15)) := by
  show (cfg1.win 15).cut (grid1.coords t) ((dat1 V c).after 15 t) = _
  rw [after1_15]
  unfold out1_15
  rw [View.canon_unit_zero hz]
  simp only [View.ld_unit_zero (S := S200x10000) hz, View.ld_unit_zero (S := S10000x128) hz, View.ld_unit_zero (S := S1x128) hz,
    View.ld_unit_zero (S := S128x64) hz, View.ld_unit_zero (S := S1x64) hz, View.ld_unit_zero (S := S64x128) hz,
    View.ld_unit_zero (S := S64x64) hz]
  rw [whole_2, whole_3, whole_4, whole_5, whole_6, whole_7, whole_8, whole_9, whole_10, whole_11, whole_12]
  obtain ⟨e0, e1⟩ := idx_15 t
  funext y
  obtain ⟨p, q, rfl⟩ : ∃ (p : Fin 200) (q : Fin 64), y = ix2 p q := ⟨y 0, y 1, eq_ix2 y⟩
  refine (pay2_rows (row t) _ _ _ _ _ _ _ _ (pay1_rows (row t) _ _
    (pay4_rows (row t) _ _ (rows_0 V c t) _ _ (rows_1 V c t) _ _ x6 h1 _ _ x8 h2 _ _ x10 h3) _ _ x12 h4 _ _ x14 h5) _ p q).trans ?_
  show _ = Spec.s2 (resV V c x6 x8 x10 x12 x14) (V c main_arg15) (((cfg1.win 15).blk t).view.emb (ix2 p q))
  refine congrArg _ (funext fun a => Fin.ext ?_)
  match a with
  | ⟨0, _⟩ => show t.val * 200 + p.val = win1_15.index t (0 : Fin 2) * 200 + 1 * p.val; omega
  | ⟨1, _⟩ => show q.val = win1_15.index t (1 : Fin 2) * 64 + 1 * q.val; omega

/-! ## The blocks tile each array, and the arrays after the run -/

theorem mem_blk_13 (t : Fin cfg1.N) (i : S10000x10000.Idx) :
    i ∈ ((cfg1.win 13).blk t).view.set ↔ ∀ a : Fin 2, win1_13.index t a * S200x10000.size a ≤ (i a).val ∧ (i a).val < win1_13.index t a * S200x10000.size a + S200x10000.size a := by
  show i ∈ ((View.whole main_v11_0).slice (win1_13.rect t)).set ↔ _
  rw [View.set_slice_whole, Rect.mem_set_unit]
  exact Iff.rfl

theorem mem_blk_14 (t : Fin cfg1.N) (i : S10000x64.Idx) :
    i ∈ ((cfg1.win 14).blk t).view.set ↔ ∀ a : Fin 2, win1_14.index t a * S200x64.size a ≤ (i a).val ∧ (i a).val < win1_14.index t a * S200x64.size a + S200x64.size a := by
  show i ∈ ((View.whole main_v11_1).slice (win1_14.rect t)).set ↔ _
  rw [View.set_slice_whole, Rect.mem_set_unit]
  exact Iff.rfl

theorem mem_blk_15 (t : Fin cfg1.N) (i : S10000x64.Idx) :
    i ∈ ((cfg1.win 15).blk t).view.set ↔ ∀ a : Fin 2, win1_15.index t a * S200x64.size a ≤ (i a).val ∧ (i a).val < win1_15.index t a * S200x64.size a + S200x64.size a := by
  show i ∈ ((View.whole main_v11_2).slice (win1_15.rect t)).set ↔ _
  rw [View.set_slice_whole, Rect.mem_set_unit]
  exact Iff.rfl

/-- Every index of each array lies in the block of the point its row belongs to. -/
theorem cover_13 (i : S10000x10000.Idx) : ∃ t : Fin cfg1.N, (cfg1.win 13).flush t = true ∧ i ∈ ((cfg1.win 13).blk t).view.set := by
  have hi0 : (i 0).val < 10000 := (i 0).isLt
  have hi1 : (i 1).val < 10000 := (i 1).isLt
  let t : Fin cfg1.N := ⟨(i 0).val / 200, lt_of_lt_of_eq (by omega : (i 0).val / 200 < 50) N_1.symm⟩
  obtain ⟨e0, e1⟩ := idx_13 t
  have ht : t.val = (i 0).val / 200 := rfl
  refine ⟨t, flush1_13 t, ?_⟩
  rw [mem_blk_13]
  intro a
  match a with
  | ⟨0, _⟩ => show win1_13.index t (0 : Fin 2) * 200 ≤ (i 0).val ∧ (i 0).val < win1_13.index t (0 : Fin 2) * 200 + 200; omega
  | ⟨1, _⟩ => show win1_13.index t (1 : Fin 2) * 10000 ≤ (i 1).val ∧ (i 1).val < win1_13.index t (1 : Fin 2) * 10000 + 10000; omega

theorem cover_14 (i : S10000x64.Idx) : ∃ t : Fin cfg1.N, (cfg1.win 14).flush t = true ∧ i ∈ ((cfg1.win 14).blk t).view.set := by
  have hi0 : (i 0).val < 10000 := (i 0).isLt
  have hi1 : (i 1).val < 64 := (i 1).isLt
  let t : Fin cfg1.N := ⟨(i 0).val / 200, lt_of_lt_of_eq (by omega : (i 0).val / 200 < 50) N_1.symm⟩
  obtain ⟨e0, e1⟩ := idx_14 t
  have ht : t.val = (i 0).val / 200 := rfl
  refine ⟨t, flush1_14 t, ?_⟩
  rw [mem_blk_14]
  intro a
  match a with
  | ⟨0, _⟩ => show win1_14.index t (0 : Fin 2) * 200 ≤ (i 0).val ∧ (i 0).val < win1_14.index t (0 : Fin 2) * 200 + 200; omega
  | ⟨1, _⟩ => show win1_14.index t (1 : Fin 2) * 64 ≤ (i 1).val ∧ (i 1).val < win1_14.index t (1 : Fin 2) * 64 + 64; omega

theorem cover_15 (i : S10000x64.Idx) : ∃ t : Fin cfg1.N, (cfg1.win 15).flush t = true ∧ i ∈ ((cfg1.win 15).blk t).view.set := by
  have hi0 : (i 0).val < 10000 := (i 0).isLt
  have hi1 : (i 1).val < 64 := (i 1).isLt
  let t : Fin cfg1.N := ⟨(i 0).val / 200, lt_of_lt_of_eq (by omega : (i 0).val / 200 < 50) N_1.symm⟩
  obtain ⟨e0, e1⟩ := idx_15 t
  have ht : t.val = (i 0).val / 200 := rfl
  refine ⟨t, flush1_15 t, ?_⟩
  rw [mem_blk_15]
  intro a
  match a with
  | ⟨0, _⟩ => show win1_15.index t (0 : Fin 2) * 200 ≤ (i 0).val ∧ (i 0).val < win1_15.index t (0 : Fin 2) * 200 + 200; omega
  | ⟨1, _⟩ => show win1_15.index t (1 : Fin 2) * 64 ≤ (i 1).val ∧ (i 1).val < win1_15.index t (1 : Fin 2) * 64 + 64; omega

/-- THE WEIGHTED ADJACENCY's array after the region. -/
theorem final_13 : (dat1 V c).arrAt 13 cfg1.N = Spec.P (V c main_arg1) (V c main_arg2) :=
  (dat1 V c).arrAt_eq_of_cover 13 _ (fun t _ => flushed_13 V c t) cover_13

include h1 h2 h3 h4 h5 in
/-- THE RESIDUAL BRANCH's array after the region. -/
theorem final_14 : (dat1 V c).arrAt 14 cfg1.N = resV V c x6 x8 x10 x12 x14 :=
  (dat1 V c).arrAt_eq_of_cover 14 _ (fun t _ => flushed_14 V c x6 x8 x10 x12 x14 h1 h2 h3 h4 h5 t) cover_14

include h1 h2 h3 h4 h5 in
/-- THE SECOND SUPPORT's array after the region. -/
theorem final_15 : (dat1 V c).arrAt 15 cfg1.N = Spec.s2 (resV V c x6 x8 x10 x12 x14) (V c main_arg15) :=
  (dat1 V c).arrAt_eq_of_cover 15 _ (fun t _ => flushed_15 V c x6 x8 x10 x12 x14 h1 h2 h3 h4 h5 t) cover_15

end

end Cert.KernelIdeal.Step1

end
-- ==== Proof.Region2.lean ====
/-
  The second propagation step, read off the kernel's run: at block `t` of the 50 blocks of 200 rows the body
  multiplies rows `200 t …` of the weighted adjacency by the whole second support, adds a bias row and the same
  rows of the residual branch, rectifies, and applies two small dense layers. Each of these commutes with taking
  rows, so what block `t` writes back is rows `200 t …` of the whole-array third support `Spec.s3`, and the 50
  blocks tile its array.
-/
import proofs.«151210_g85950885527879_cont_sun_c4_601_3_alg».proof.Proof.Gen.KernelIdeal.Frame
import proofs.«151210_g85950885527879_cont_sun_c4_601_3_alg».proof.Proof.Spec
import proofs.«151210_g85950885527879_cont_sun_c4_601_3_alg».proof.Proof.LibRows
import proofs.«151210_g85950885527879_cont_sun_c4_601_3_alg».proof.Proof.DotFacts

set_option maxRecDepth 16384

noncomputable section

namespace Cert.KernelIdeal.Step2

open Cert.KernelIdeal Cert.KernelIdeal.Gen Cert.KernelIdeal.Facts₀ Idealize.ShloMosaic Idealize.ShloMosaic.TcCoe Idealize.SL.Sem
open Idealize.ShloMosaic.ValueIdx
open Idealize.ShloMosaic.Pipeline (Dat Cfg)

/-- The body's stored value on a block of rows is the same rows of the whole-array third support. -/
theorem pay_rows (r : Fin 200 → Fin 10000)
    (pb : Vec Ideal S200x10000 .bf16) (p : Spec.Arr Cert.ReferenceIdeal.S10000x10000) (hp : Rows r pb p)
    (sup : Vec Ideal S10000x64 .bf16)
    (b6 : Vec Ideal S1x64 .f32) (x16 : Spec.Arr Cert.ReferenceIdeal.S64) (h6 : ∀ q : Fin 64, b6 (ix2 (0 : Fin 1) q) = x16 (ix1 q))
    (rb : Vec Ideal S200x64 .f32) (rs : Spec.Arr Cert.ReferenceIdeal.S10000x64) (hr : Rows r rb rs)
    (w17 : Vec Ideal S64x32 .f32)
    (b7 : Vec Ideal S1x32 .f32) (x18 : Spec.Arr Cert.ReferenceIdeal.S32) (h7 : ∀ q : Fin 32, b7 (ix2 (0 : Fin 1) q) = x18 (ix1 q))
    (w19 : Vec Ideal S32x32 .f32) :
    Rows r (k2_pay1 (F := Ideal) pb sup b6 rb w17 b7 w19) (Spec.s3 p sup rs x16 w17 x18 w19) := by
  unfold k2_pay1 Spec.s3 Spec.relu64 Spec.bias64 Spec.bias32
  refine Rows.truncf _ (Rows.matmul _ DotFacts.k_200_32_32 _ DotFacts.r_10000_32_32 none none _ _ _ _ ?_ rfl)
  refine Rows.addf (Rows.matmul _ DotFacts.k_200_64_32 _ DotFacts.r_10000_64_32 none none _ _ _ _ ?_ rfl) (Rows.bias b7 x18 h7 _ _ _ _)
  refine Rows.maximumf (Rows.addf (Rows.addf
    (Rows.matmul _ DotFacts.k_200_10000_64 _ DotFacts.r_10000_10000_64 none none _ _ _ _ (Rows.castSelf _ hp) (shapeCast_self _ _))
    (Rows.bias b6 x16 h6 _ _ _ _)) (Rows.castSelf _ hr)) (Rows.const _ _)

/-! ## The grid: block `t` of the row-blocked windows starts at row `200 t`; every other window is its whole array -/

theorem hz : (![0, 0] : Fin 2 → Nat) = fun _ => 0 := funext fun a => by fin_cases a <;> rfl

/-- The printed index maps over the 50 grid points, window by window. -/
theorem idx_0 : ∀ t : Fin cfg2.N, win2_0.index t (0 : Fin 2) = t.val ∧ win2_0.index t (1 : Fin 2) = 0 :=
  (by decide +kernel : ∀ t : Fin grid2.N, _)
theorem idx_1 : ∀ t : Fin cfg2.N, win2_1.index t (0 : Fin 2) = 0 ∧ win2_1.index t (1 : Fin 2) = 0 :=
  (by decide +kernel : ∀ t : Fin grid2.N, _)
theorem idx_2 : ∀ t : Fin cfg2.N, win2_2.index t (0 : Fin 2) = t.val ∧ win2_2.index t (1 : Fin 2) = 0 :=
  (by decide +kernel : ∀ t : Fin grid2.N, _)
theorem idx_3 : ∀ t : Fin cfg2.N, win2_3.index t (0 : Fin 2) = 0 ∧ win2_3.index t (1 : Fin 2) = 0 :=
  (by decide +kernel : ∀ t : Fin grid2.N, _)
theorem idx_4 : ∀ t : Fin cfg2.N, win2_4.index t (0 : Fin 2) = 0 ∧ win2_4.index t (1 : Fin 2) = 0 :=
  (by decide +kernel : ∀ t : Fin grid2.N, _)
theorem idx_5 : ∀ t : Fin cfg2.N, win2_5.index t (0 : Fin 2) = 0 ∧ win2_5.index t (1 : Fin 2) = 0 :=
  (by decide +kernel : ∀ t : Fin grid2.N, _)
theorem idx_6 : ∀ t : Fin cfg2.N, win2_6.index t (0 : Fin 2) = 0 ∧ win2_6.index t (1 : Fin 2) = 0 :=
  (by decide +kernel : ∀ t : Fin grid2.N, _)
theorem idx_7 : ∀ t : Fin cfg2.N, win2_7.index t (0 : Fin 2) = t.val ∧ win2_7.index t (1 : Fin 2) = 0 :=
  (by decide +kernel : ∀ t : Fin grid2.N, _)

theorem t_lt (t : Fin cfg2.N) : t.val < 50 := lt_of_lt_of_eq t.isLt N_2

/-- Row `p` of block `t` is row `200 t + p` of the array. -/
def row (t : Fin cfg2.N) (p : Fin 200) : Fin 10000 := ⟨t.val * 200 + p.val, by have := t_lt t; have := p.isLt; omega⟩

variable (V : (c : Dev nD) → (b : Ref sig .tc) → Buf (Elt Ideal) ((c : Thread nD τ).loc b))

/-- The adjacency window's block at point `t` is rows `200 t …` of its array. -/
theorem rows_0 (c : Dev nD) (t : Fin cfg2.N) : Rows (row t) (iblk2 V c 0 t) (V c main_v11_0) := by
  intro p q
  obtain ⟨e0, e1⟩ := idx_0 t
  show V c main_v11_0 (((cfg2.win 0).blk t).view.emb (ix2 p q)) = V c main_v11_0 (ix2 (row t p) q)
  refine congrArg _ (funext fun a => Fin.ext ?_)
  match a with
  | ⟨0, _⟩ => show win2_0.index t (0 : Fin 2) * 200 + 1 * p.val = t.val * 200 + p.val; omega
  | ⟨1, _⟩ => show win2_0.index t (1 : Fin 2) * 10000 + 1 * q.val = q.val; omega

/-- The residual window's block at point `t` is rows `200 t …` of its array. -/
theorem rows_2 (c : Dev nD) (t : Fin cfg2.N) : Rows (row t) (iblk2 V c 2 t) (V c main_v11_1) := by
  intro p q
  obtain ⟨e0, e1⟩ := idx_2 t
  show V c main_v11_1 (((cfg2.win 2).blk t).view.emb (ix2 p q)) = V c main_v11_1 (ix2 (row t p) q)
  refine congrArg _ (funext fun a => Fin.ext ?_)
  match a with
  | ⟨0, _⟩ => show win2_2.index t (0 : Fin 2) * 200 + 1 * p.val = t.val * 200 + p.val; omega
  | ⟨1, _⟩ => show win2_2.index t (1 : Fin 2) * 64 + 1 * q.val = q.val; omega

/-- Each remaining window's block is its whole array, at every point. -/
theorem whole_1 (c : Dev nD) (t : Fin cfg2.N) : iblk2 V c 1 t = V c main_v11_2 := by
  obtain ⟨e0, e1⟩ := idx_1 t
  funext y
  show V c main_v11_2 (((cfg2.win 1).blk t).view.emb y) = V c main_v11_2 y
  refine congrArg _ (funext fun a => Fin.ext ?_)
  match a with
  | ⟨0, _⟩ => show win2_1.index t (0 : Fin 2) * 10000 + 1 * (y 0).val = (y 0).val; omega
  | ⟨1, _⟩ => show win2_1.index t (1 : Fin 2) * 64 + 1 * (y 1).val = (y 1).val; omega

theorem whole_3 (c : Dev nD) (t : Fin cfg2.N) : iblk2 V c 3 t = V c main_v6 := by
  obtain ⟨e0, e1⟩ := idx_3 t
  funext y
  show V c main_v6 (((cfg2.win 3).blk t).view.emb y) = V c main_v6 y
  refine congrArg _ (funext fun a => Fin.ext ?_)
  match a with
  | ⟨0, _⟩ => show win2_3.index t (0 : Fin 2) * 1 + 1 * (y 0).val = (y 0).val; omega
  | ⟨1, _⟩ => show win2_3.index t (1 : Fin 2) * 64 + 1 * (y 1).val = (y 1).val; omega

theorem whole_4 (c : Dev nD) (t : Fin cfg2.N) : iblk2 V c 4 t = V c main_arg17 := by
  obtain ⟨e0, e1⟩ := idx_4 t
  funext y
  show V c main_arg17 (((cfg2.win 4).blk t).view.emb y) = V c main_arg17 y
  refine congrArg _ (funext fun a => Fin.ext ?_)
  match a with
  | ⟨0, _⟩ => show win2_4.index t (0 : Fin 2) * 64 + 1 * (y 0).val = (y 0).val; omega
  | ⟨1, _⟩ => show win2_4.index t (1 : Fin 2) * 32 + 1 * (y 1).val = (y 1).val; omega

theorem whole_5 (c : Dev nD) (t : Fin cfg2.N) : iblk2 V c 5 t = V c main_v7 := by
  obtain ⟨e0, e1⟩ := idx_5 t
  funext y
  show V c main_v7 (((cfg2.win 5).blk t).view.emb y) = V c main_v7 y
  refine congrArg _ (funext fun a => Fin.ext ?_)
  match a with
  | ⟨0, _⟩ => show win2_5.index t (0 : Fin 2) * 1 + 1 * (y 0).val = (y 0).val; omega
  | ⟨1, _⟩ => show win2_5.index t (1 : Fin 2) * 32 + 1 * (y 1).val = (y 1).val; omega

theorem whole_6 (c : Dev nD) (t : Fin cfg2.N) : iblk2 V c 6 t = V c main_arg19 := by
  obtain ⟨e0, e1⟩ := idx_6 t
  funext y
  show V c main_arg19 (((cfg2.win 6).blk t).view.emb y) = V c main_arg19 y
  refine congrArg _ (funext fun a => Fin.ext ?_)
  match a with
  | ⟨0, _⟩ => show win2_6.index t (0 : Fin 2) * 32 + 1 * (y 0).val = (y 0).val; omega
  | ⟨1, _⟩ => show win2_6.index t (1 : Fin 2) * 32 + 1 * (y 1).val = (y 1).val; omega

/-! ## What a point writes back, and the array after the run -/

/-- What point `t` writes back is block `t` of the whole-array third support of the arrays the region is entered
    with, the two bias rows being the reshaped bias vectors `x16` and `x18`. -/
theorem flushed_eq (c : Dev nD) (x16 : Spec.Arr Cert.ReferenceIdeal.S64) (x18 : Spec.Arr Cert.ReferenceIdeal.S32)
    (h6 : ∀ q : Fin 64, V c main_v6 (ix2 (0 : Fin 1) q) = x16 (ix1 q))
    (h7 : ∀ q : Fin 32, V c main_v7 (ix2 (0 : Fin 1) q) = x18 (ix1 q)) (t : Fin cfg2.N) :
    (dat2 V c).flushed 7 t
      = ((cfg2.win 7).blk t).view.read (Elt Ideal)
          (Spec.s3 (V c main_v11_0) (V c main_v11_2) (V c main_v11_1) x16 (V c main_arg17) x18 (V c main_arg19)) := by
  show (cfg2.win 7).cut (grid2.coords t) ((dat2 V c).after 7 t) = _
  rw [after2_7]
  unfold out2_7
  rw [View.canon_unit_zero hz]
  simp only [View.ld_unit_zero (S := S200x10000) hz, View.ld_unit_zero (S := S10000x64) hz, View.ld_unit_zero (S := S200x64) hz,
    View.ld_unit_zero (S := S1x64) hz, View.ld_unit_zero (S := S64x32) hz, View.ld_unit_zero (S := S1x32) hz,
    View.ld_unit_zero (S := S32x32) hz]
  rw [whole_1, whole_3, whole_4, whole_5, whole_6]
  obtain ⟨e0, e1⟩ := idx_7 t
  funext y
  obtain ⟨p, q, rfl⟩ : ∃ (p : Fin 200) (q : Fin 32), y = ix2 p q := ⟨y 0, y 1, eq_ix2 y⟩
  refine (pay_rows (row t) _ _ (rows_0 V c t) _ _ x16 h6 _ _ (rows_2 V c t) _ _ x18 h7 _ p q).trans ?_
  show _ = Spec.s3 (V c main_v11_0) (V c main_v11_2) (V c main_v11_1) x16 (V c main_arg17) x18 (V c main_arg19)
    (((cfg2.win 7).blk t).view.emb (ix2 p q))
  refine congrArg _ (funext fun a => Fin.ext ?_)
  match a with
  | ⟨0, _⟩ => show t.val * 200 + p.val = win2_7.index t (0 : Fin 2) * 200 + 1 * p.val; omega
  | ⟨1, _⟩ => show q.val = win2_7.index t (1 : Fin 2) * 32 + 1 * q.val; omega

/-- An index of the support's array is in point `t`'s block iff each coordinate is in the block's range. -/
theorem mem_blk (t : Fin cfg2.N) (i : S10000x32.Idx) :
    i ∈ ((cfg2.win 7).blk t).view.set ↔ ∀ a : Fin 2, win2_7.index t a * S200x32.size a ≤ (i a).val ∧ (i a).val < win2_7.index t a * S200x32.size a + S200x32.size a := by
  show i ∈ ((View.whole main_v12).slice (win2_7.rect t)).set ↔ _
  rw [View.set_slice_whole, Rect.mem_set_unit]
  exact Iff.rfl

/-- Every index of the support's array lies in the block of the point its row belongs to. -/
theorem cover (i : S10000x32.Idx) : ∃ t : Fin cfg2.N, (cfg2.win 7).flush t = true ∧ i ∈ ((cfg2.win 7).blk t).view.set := by
  have hi0 : (i 0).val < 10000 := (i 0).isLt
  have hi1 : (i 1).val < 32 := (i 1).isLt
  let t : Fin cfg2.N := ⟨(i 0).val / 200, lt_of_lt_of_eq (by omega : (i 0).val / 200 < 50) N_2.symm⟩
  obtain ⟨e0, e1⟩ := idx_7 t
  have ht : t.val = (i 0).val / 200 := rfl
  refine ⟨t, flush2_7 t, ?_⟩
  rw [mem_blk]
  intro a
  match a with
  | ⟨0, _⟩ => show win2_7.index t (0 : Fin 2) * 200 ≤ (i 0).val ∧ (i 0).val < win2_7.index t (0 : Fin 2) * 200 + 200; omega
  | ⟨1, _⟩ => show win2_7.index t (1 : Fin 2) * 32 ≤ (i 1).val ∧ (i 1).val < win2_7.index t (1 : Fin 2) * 32 + 32; omega

/-- THE THIRD SUPPORT's array after the region: the whole-array function of the arrays the region is entered with. -/
theorem final (c : Dev nD) (x16 : Spec.Arr Cert.ReferenceIdeal.S64) (x18 : Spec.Arr Cert.ReferenceIdeal.S32)
    (h6 : ∀ q : Fin 64, V c main_v6 (ix2 (0 : Fin 1) q) = x16 (ix1 q))
    (h7 : ∀ q : Fin 32, V c main_v7 (ix2 (0 : Fin 1) q) = x18 (ix1 q)) :
    (dat2 V c).arrAt 7 cfg2.N
      = Spec.s3 (V c main_v11_0) (V c main_v11_2) (V c main_v11_1) x16 (V c main_arg17) x18 (V c main_arg19) :=
  (dat2 V c).arrAt_eq_of_cover 7 _ (fun t _ => flushed_eq V c x16 x18 h6 h7 t) cover

end Cert.KernelIdeal.Step2

end
-- ==== Proof.Region3.lean ====
/-
  The last propagation step, read off the kernel's run: its grid walks the 10000 rows in 50 blocks of 200; at
  block `t` the body multiplies rows `200 t … 200 t + 199` of the weighted adjacency by the whole third support,
  adds a bias row, multiplies by a small weight matrix and adds another bias row. Each of these commutes with
  taking rows, so what block `t` writes back is rows `200 t …` of the whole-array result `Spec.out`, and the 50
  blocks tile the result array.
-/
import proofs.«151210_g85950885527879_cont_sun_c4_601_3_alg».proof.Proof.Gen.KernelIdeal.Frame
import proofs.«151210_g85950885527879_cont_sun_c4_601_3_alg».proof.Proof.Spec
import proofs.«151210_g85950885527879_cont_sun_c4_601_3_alg».proof.Proof.LibRows
import proofs.«151210_g85950885527879_cont_sun_c4_601_3_alg».proof.Proof.DotFacts

set_option maxRecDepth 16384

noncomputable section

namespace Cert.KernelIdeal.Step3

open Cert.KernelIdeal Cert.KernelIdeal.Gen Cert.KernelIdeal.Facts₀ Idealize.ShloMosaic Idealize.ShloMosaic.TcCoe Idealize.SL.Sem
open Idealize.ShloMosaic.ValueIdx
open Idealize.ShloMosaic.Pipeline (Dat Cfg)

/-- The body's stored value on a block of rows is the same rows of the whole-array result. -/
theorem pay_rows (r : Fin 200 → Fin 10000)
    (pb : Vec Ideal S200x10000 .bf16) (p : Spec.Arr Cert.ReferenceIdeal.S10000x10000) (hp : Rows r pb p)
    (sup : Vec Ideal S10000x32 .bf16)
    (b8 : Vec Ideal S1x32 .f32) (x20 : Spec.Arr Cert.ReferenceIdeal.S32) (h8 : ∀ q : Fin 32, b8 (ix2 (0 : Fin 1) q) = x20 (ix1 q))
    (w : Vec Ideal S32x64 .f32)
    (b9 : Vec Ideal S1x64 .f32) (x22 : Spec.Arr Cert.ReferenceIdeal.S64) (h9 : ∀ q : Fin 64, b9 (ix2 (0 : Fin 1) q) = x22 (ix1 q)) :
    Rows r (k3_pay1 (F := Ideal) pb sup b8 w b9) (Spec.out p sup x20 w x22) := by
  unfold k3_pay1 Spec.out Spec.bias32 Spec.bias64
  refine Rows.addf (Rows.matmul _ DotFacts.k_200_32_64 _ DotFacts.r_10000_32_64 none none _ _ _ _ ?_ rfl) (Rows.bias b9 x22 h9 _ _ _ _)
  refine Rows.addf (Rows.matmul _ DotFacts.k_200_10000_32 _ DotFacts.r_10000_10000_32 none none _ _ _ _ (Rows.castSelf _ hp) (shapeCast_self _ _)) (Rows.bias b8 x20 h8 _ _ _ _)

/-! ## The grid: block `t` of the row-blocked windows starts at row `200 t`; every other window is its whole array -/

theorem hz : (![0, 0] : Fin 2 → Nat) = fun _ => 0 := funext fun a => by fin_cases a <;> rfl

/-- The printed index maps over the 50 grid points. -/
theorem idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0 :=
  (by decide +kernel : ∀ t : Fin grid3.N, _)

theorem t_lt (t : Fin cfg3.N) : t.val < 50 := lt_of_lt_of_eq t.isLt N_3

/-- Row `p` of block `t` is row `200 t + p` of the array. -/
def row (t : Fin cfg3.N) (p : Fin 200) : Fin 10000 := ⟨t.val * 200 + p.val, by have := t_lt t; have := p.isLt; omega⟩

variable (V : (c : Dev nD) → (b : Ref sig .tc) → Buf (Elt Ideal) ((c : Thread nD τ).loc b))

/-- The adjacency window's block at point `t` is rows `200 t …` of its array. -/
theorem rows_p (c : Dev nD) (t : Fin cfg3.N) : Rows (row t) (iblk3 V c 0 t) (V c main_v11_0) := by
  intro p q
  obtain ⟨e0, e1, -⟩ := idx t
  show V c main_v11_0 (((cfg3.win 0).blk t).view.emb (ix2 p q)) = V c main_v11_0 (ix2 (row t p) q)
  refine congrArg _ (funext fun a => Fin.ext ?_)
  match a with
  | ⟨0, _⟩ => show win3_0.index t (0 : Fin 2) * 200 + 1 * p.val = t.val * 200 + p.val; omega
  | ⟨1, _⟩ => show win3_0.index t (1 : Fin 2) * 10000 + 1 * q.val = q.val; omega

/-- The support window's block is its whole array, at every point. -/
theorem whole_1 (c : Dev nD) (t : Fin cfg3.N) : iblk3 V c 1 t = V c main_v12 := by
  obtain ⟨-, -, e0, e1, -⟩ := idx t
  funext y
  show V c main_v12 (((cfg3.win 1).blk t).view.emb y) = V c main_v12 y
  refine congrArg _ (funext fun a => Fin.ext ?_)
  match a with
  | ⟨0, _⟩ => show win3_1.index t (0 : Fin 2) * 10000 + 1 * (y 0).val = (y 0).val; omega
  | ⟨1, _⟩ => show win3_1.index t (1 : Fin 2) * 32 + 1 * (y 1).val = (y 1).val; omega

theorem whole_2 (c : Dev nD) (t : Fin cfg3.N) : iblk3 V c 2 t = V c main_v8 := by
  obtain ⟨-, -, -, -, e0, e1, -⟩ := idx t
  funext y
  show V c main_v8 (((cfg3.win 2).blk t).view.emb y) = V c main_v8 y
  refine congrArg _ (funext fun a => Fin.ext ?_)
  match a with
  | ⟨0, _⟩ => show win3_2.index t (0 : Fin 2) * 1 + 1 * (y 0).val = (y 0).val; omega
  | ⟨1, _⟩ => show win3_2.index t (1 : Fin 2) * 32 + 1 * (y 1).val = (y 1).val; omega

theorem whole_3 (c : Dev nD) (t : Fin cfg3.N) : iblk3 V c 3 t = V c main_arg21 := by
  obtain ⟨-, -, -, -, -, -, e0, e1, -⟩ := idx t
  funext y
  show V c main_arg21 (((cfg3.win 3).blk t).view.emb y) = V c main_arg21 y
  refine congrArg _ (funext fun a => Fin.ext ?_)
  match a with
  | ⟨0, _⟩ => show win3_3.index t (0 : Fin 2) * 32 + 1 * (y 0).val = (y 0).val; omega
  | ⟨1, _⟩ => show win3_3.index t (1 : Fin 2) * 64 + 1 * (y 1).val = (y 1).val; omega

theorem whole_4 (c : Dev nD) (t : Fin cfg3.N) : iblk3 V c 4 t = V c main_v9 := by
  obtain ⟨-, -, -, -, -, -, -, -, e0, e1, -⟩ := idx t
  funext y
  show V c main_v9 (((cfg3.win 4).blk t).view.emb y) = V c main_v9 y
  refine congrArg _ (funext fun a => Fin.ext ?_)
  match a with
  | ⟨0, _⟩ => show win3_4.index t (0 : Fin 2) * 1 + 1 * (y 0).val = (y 0).val; omega
  | ⟨1, _⟩ => show win3_4.index t (1 : Fin 2) * 64 + 1 * (y 1).val = (y 1).val; omega

/-! ## What a point writes back, and the array after the run -/

/-- What point `t` writes back is block `t` of the whole-array result of the arrays the region is entered with,
    the two bias rows being the reshaped bias vectors `x20` and `x22`. -/
theorem flushed_eq (c : Dev nD) (x20 : Spec.Arr Cert.ReferenceIdeal.S32) (x22 : Spec.Arr Cert.ReferenceIdeal.S64)
    (h8 : ∀ q : Fin 32, V c main_v8 (ix2 (0 : Fin 1) q) = x20 (ix1 q))
    (h9 : ∀ q : Fin 64, V c main_v9 (ix2 (0 : Fin 1) q) = x22 (ix1 q)) (t : Fin cfg3.N) :
    (dat3 V c).flushed 5 t
      = ((cfg3.win 5).blk t).view.read (Elt Ideal) (Spec.out (V c main_v11_0) (V c main_v12) x20 (V c main_arg21) x22) := by
  show (cfg3.win 5).cut (grid3.coords t) ((dat3 V c).after 5 t) = _
  rw [after3_5]
  unfold out3_5
  rw [View.canon_unit_zero hz]
  simp only [View.ld_unit_zero (S := S200x10000) hz, View.ld_unit_zero (S := S10000x32) hz, View.ld_unit_zero (S := S1x32) hz,
    View.ld_unit_zero (S := S32x64) hz, View.ld_unit_zero (S := S1x64) hz]
  rw [whole_1, whole_2, whole_3, whole_4]
  obtain ⟨-, -, -, -, -, -, -, -, -, -, e0, e1⟩ := idx t
  funext y
  obtain ⟨p, q, rfl⟩ : ∃ (p : Fin 200) (q : Fin 64), y = ix2 p q := ⟨y 0, y 1, eq_ix2 y⟩
  refine (pay_rows (row t) _ _ (rows_p V c t) _ _ x20 h8 _ _ x22 h9 p q).trans ?_
  show _ = Spec.out (V c main_v11_0) (V c main_v12) x20 (V c main_arg21) x22 (((cfg3.win 5).blk t).view.emb (ix2 p q))
  refine congrArg _ (funext fun a => Fin.ext ?_)
  match a with
  | ⟨0, _⟩ => show t.val * 200 + p.val = win3_5.index t (0 : Fin 2) * 200 + 1 * p.val; omega
  | ⟨1, _⟩ => show q.val = win3_5.index t (1 : Fin 2) * 64 + 1 * q.val; omega

/-- An index of the result array is in point `t`'s block iff each coordinate is in the block's range. -/
theorem mem_blk (t : Fin cfg3.N) (i : S10000x64.Idx) :
    i ∈ ((cfg3.win 5).blk t).view.set ↔ ∀ a : Fin 2, win3_5.index t a * S200x64.size a ≤ (i a).val ∧ (i a).val < win3_5.index t a * S200x64.size a + S200x64.size a := by
  show i ∈ ((View.whole main_v13).slice (win3_5.rect t)).set ↔ _
  rw [View.set_slice_whole, Rect.mem_set_unit]
  exact Iff.rfl

/-- Every index of the result array lies in the block of the point its row belongs to. -/
theorem cover (i : S10000x64.Idx) : ∃ t : Fin cfg3.N, (cfg3.win 5).flush t = true ∧ i ∈ ((cfg3.win 5).blk t).view.set := by
  have hi0 : (i 0).val < 10000 := (i 0).isLt
  have hi1 : (i 1).val < 64 := (i 1).isLt
  let t : Fin cfg3.N := ⟨(i 0).val / 200, lt_of_lt_of_eq (by omega : (i 0).val / 200 < 50) N_3.symm⟩
  obtain ⟨-, -, -, -, -, -, -, -, -, -, e0, e1⟩ := idx t
  have ht : t.val = (i 0).val / 200 := rfl
  refine ⟨t, flush3_5 t, ?_⟩
  rw [mem_blk]
  intro a
  match a with
  | ⟨0, _⟩ => show win3_5.index t (0 : Fin 2) * 200 ≤ (i 0).val ∧ (i 0).val < win3_5.index t (0 : Fin 2) * 200 + 200; omega
  | ⟨1, _⟩ => show win3_5.index t (1 : Fin 2) * 64 ≤ (i 1).val ∧ (i 1).val < win3_5.index t (1 : Fin 2) * 64 + 64; omega

/-- THE RESULT ARRAY after the region: the whole-array result of the arrays the region is entered with. -/
theorem final (c : Dev nD) (x20 : Spec.Arr Cert.ReferenceIdeal.S32) (x22 : Spec.Arr Cert.ReferenceIdeal.S64)
    (h8 : ∀ q : Fin 32, V c main_v8 (ix2 (0 : Fin 1) q) = x20 (ix1 q))
    (h9 : ∀ q : Fin 64, V c main_v9 (ix2 (0 : Fin 1) q) = x22 (ix1 q)) :
    (dat3 V c).arrAt 5 cfg3.N = Spec.out (V c main_v11_0) (V c main_v12) x20 (V c main_arg21) x22 :=
  (dat3 V c).arrAt_eq_of_cover 5 _ (fun t _ => flushed_eq V c x20 x22 h8 h9 t) cover

end Cert.KernelIdeal.Step3

end
-- ==== Proof.Chain.lean ====
/-
  The four regions chained: the result array at the end of the run as one function of the argument arrays.
  Region 0 leaves the first support; region 1, entered with it, leaves the weighted adjacency, the residual branch
  and the second support; region 2, entered with those, leaves the third support; region 3, entered with the
  weighted adjacency and the third support, leaves the result. Between regions an array nobody writes keeps its
  contents: a region's input arrays end as they were entered, and an array that is none of a region's is not
  touched by it. The ten bias rows are the host reshapes [n] → [1, n] of the bias vectors, made before region 0.
-/
import proofs.«151210_g85950885527879_cont_sun_c4_601_3_alg».proof.Proof.Region0
import proofs.«151210_g85950885527879_cont_sun_c4_601_3_alg».proof.Proof.Region1
import proofs.«151210_g85950885527879_cont_sun_c4_601_3_alg».proof.Proof.Region2
import proofs.«151210_g85950885527879_cont_sun_c4_601_3_alg».proof.Proof.Region3
import Idealize.ShloMosaic.Lib.StableHlo.Run
import Idealize.ShloMosaic.Lib.ValueLayout

set_option maxRecDepth 16384

noncomputable section

namespace Cert.KernelIdeal.Chain

open Cert.KernelIdeal Cert.KernelIdeal.Gen Cert.KernelIdeal.Facts₀ Idealize.ShloMosaic Idealize.ShloMosaic.TcCoe Idealize.SL.Sem
open Idealize.ShloMosaic.ValueIdx
open Idealize.ShloMosaic.Pipeline (Dat Cfg)

variable (m : (ℓ : Loc nD τ sig) → Buf (Elt Ideal) ℓ) (ρ : Dev nD → PrngReg)

/-- An argument array as launched. -/
abbrev arg (c : Dev nD) (b : Ref sig .tc) : Buf (Elt Ideal) ((c : Thread nD τ).loc b) := m ((c : Thread nD τ).loc b)

/-! ## Before region 0: the host reshapes -/

/-- An array the reshapes do not write is as launched when region 0 is entered. -/
local macro "host_kept" : tactic =>
  `(tactic| (show StableHlo.after hostOps0 _ _ = _; after_results))

theorem V1_arg0 (c : Dev nD) : V1 m ρ c main_arg0 = arg m c main_arg0 := by host_kept
theorem V1_arg1 (c : Dev nD) : V1 m ρ c main_arg1 = arg m c main_arg1 := by host_kept
theorem V1_arg2 (c : Dev nD) : V1 m ρ c main_arg2 = arg m c main_arg2 := by host_kept
theorem V1_arg3 (c : Dev nD) : V1 m ρ c main_arg3 = arg m c main_arg3 := by host_kept
theorem V1_arg5 (c : Dev nD) : V1 m ρ c main_arg5 = arg m c main_arg5 := by host_kept
theorem V1_arg7 (c : Dev nD) : V1 m ρ c main_arg7 = arg m c main_arg7 := by host_kept
theorem V1_arg9 (c : Dev nD) : V1 m ρ c main_arg9 = arg m c main_arg9 := by host_kept
theorem V1_arg11 (c : Dev nD) : V1 m ρ c main_arg11 = arg m c main_arg11 := by host_kept
theorem V1_arg13 (c : Dev nD) : V1 m ρ c main_arg13 = arg m c main_arg13 := by host_kept
theorem V1_arg15 (c : Dev nD) : V1 m ρ c main_arg15 = arg m c main_arg15 := by host_kept
theorem V1_arg17 (c : Dev nD) : V1 m ρ c main_arg17 = arg m c main_arg17 := by host_kept
theorem V1_arg19 (c : Dev nD) : V1 m ρ c main_arg19 = arg m c main_arg19 := by host_kept
theorem V1_arg21 (c : Dev nD) : V1 m ρ c main_arg21 = arg m c main_arg21 := by host_kept

/-- A reshaped bias row, read at `(0, q)`, is the bias vector at `q`: the cast keeps the row-major position. -/
local macro "host_row" e:term : tactic =>
  `(tactic| (
    have e := $e
    rw [e]
    exact shapeCast_a_1a_apply _ _ 0 _))

theorem V1_v0_eq (c : Dev nD) : (V1 m ρ c main_v0 : S1x128.Idx → EReal) = shapeCast S1x128 (arg m c main_arg4) Gen.shapeCasts_S128_S1x128 := by
  show StableHlo.after hostOps0 _ _ = _; after_results; rfl
theorem V1_v1_eq (c : Dev nD) : (V1 m ρ c main_v1 : S1x128.Idx → EReal) = shapeCast S1x128 (arg m c main_arg6) Gen.shapeCasts_S128_S1x128 := by
  show StableHlo.after hostOps0 _ _ = _; after_results; rfl
theorem V1_v2_eq (c : Dev nD) : (V1 m ρ c main_v2 : S1x64.Idx → EReal) = shapeCast S1x64 (arg m c main_arg8) Gen.shapeCasts_S64_S1x64 := by
  show StableHlo.after hostOps0 _ _ = _; after_results; rfl
theorem V1_v3_eq (c : Dev nD) : (V1 m ρ c main_v3 : S1x128.Idx → EReal) = shapeCast S1x128 (arg m c main_arg10) Gen.shapeCasts_S128_S1x128 := by
  show StableHlo.after hostOps0 _ _ = _; after_results; rfl
theorem V1_v4_eq (c : Dev nD) : (V1 m ρ c main_v4 : S1x64.Idx → EReal) = shapeCast S1x64 (arg m c main_arg12) Gen.shapeCasts_S64_S1x64 := by
  show StableHlo.after hostOps0 _ _ = _; after_results; rfl
theorem V1_v5_eq (c : Dev nD) : (V1 m ρ c main_v5 : S1x64.Idx → EReal) = shapeCast S1x64 (arg m c main_arg14) Gen.shapeCasts_S64_S1x64 := by
  show StableHlo.after hostOps0 _ _ = _; after_results; rfl
theorem V1_v6_eq (c : Dev nD) : (V1 m ρ c main_v6 : S1x64.Idx → EReal) = shapeCast S1x64 (arg m c main_arg16) Gen.shapeCasts_S64_S1x64 := by
  show StableHlo.after hostOps0 _ _ = _; after_results; rfl
theorem V1_v7_eq (c : Dev nD) : (V1 m ρ c main_v7 : S1x32.Idx → EReal) = shapeCast S1x32 (arg m c main_arg18) Gen.shapeCasts_S32_S1x32 := by
  show StableHlo.after hostOps0 _ _ = _; after_results; rfl
theorem V1_v8_eq (c : Dev nD) : (V1 m ρ c main_v8 : S1x32.Idx → EReal) = shapeCast S1x32 (arg m c main_arg20) Gen.shapeCasts_S32_S1x32 := by
  show StableHlo.after hostOps0 _ _ = _; after_results; rfl
theorem V1_v9_eq (c : Dev nD) : (V1 m ρ c main_v9 : S1x64.Idx → EReal) = shapeCast S1x64 (arg m c main_arg22) Gen.shapeCasts_S64_S1x64 := by
  show StableHlo.after hostOps0 _ _ = _; after_results; rfl

theorem V1_v0 (c : Dev nD) (q : Fin 128) : V1 m ρ c main_v0 (ix2 (0 : Fin 1) q) = arg m c main_arg4 (ix1 q) := by
  host_row V1_v0_eq m ρ c
theorem V1_v1 (c : Dev nD) (q : Fin 128) : V1 m ρ c main_v1 (ix2 (0 : Fin 1) q) = arg m c main_arg6 (ix1 q) := by
  host_row V1_v1_eq m ρ c
theorem V1_v2 (c : Dev nD) (q : Fin 64) : V1 m ρ c main_v2 (ix2 (0 : Fin 1) q) = arg m c main_arg8 (ix1 q) := by
  host_row V1_v2_eq m ρ c
theorem V1_v3 (c : Dev nD) (q : Fin 128) : V1 m ρ c main_v3 (ix2 (0 : Fin 1) q) = arg m c main_arg10 (ix1 q) := by
  host_row V1_v3_eq m ρ c
theorem V1_v4 (c : Dev nD) (q : Fin 64) : V1 m ρ c main_v4 (ix2 (0 : Fin 1) q) = arg m c main_arg12 (ix1 q) := by
  host_row V1_v4_eq m ρ c
theorem V1_v5 (c : Dev nD) (q : Fin 64) : V1 m ρ c main_v5 (ix2 (0 : Fin 1) q) = arg m c main_arg14 (ix1 q) := by
  host_row V1_v5_eq m ρ c
theorem V1_v6 (c : Dev nD) (q : Fin 64) : V1 m ρ c main_v6 (ix2 (0 : Fin 1) q) = arg m c main_arg16 (ix1 q) := by
  host_row V1_v6_eq m ρ c
theorem V1_v7 (c : Dev nD) (q : Fin 32) : V1 m ρ c main_v7 (ix2 (0 : Fin 1) q) = arg m c main_arg18 (ix1 q) := by
  host_row V1_v7_eq m ρ c
theorem V1_v8 (c : Dev nD) (q : Fin 32) : V1 m ρ c main_v8 (ix2 (0 : Fin 1) q) = arg m c main_arg20 (ix1 q) := by
  host_row V1_v8_eq m ρ c
theorem V1_v9 (c : Dev nD) (q : Fin 64) : V1 m ρ c main_v9 (ix2 (0 : Fin 1) q) = arg m c main_arg22 (ix1 q) := by
  host_row V1_v9_eq m ρ c

/-! ## The values, as functions of the argument arrays -/

abbrev aS1 (c : Dev nD) : Spec.Arr Cert.ReferenceIdeal.S10000x128 :=
  Spec.s1 (arg m c main_arg0) (arg m c main_arg3) (arg m c main_arg4) (arg m c main_arg5)
abbrev aP (c : Dev nD) : Spec.Arr Cert.ReferenceIdeal.S10000x10000 := Spec.P (arg m c main_arg1) (arg m c main_arg2)
abbrev aRes (c : Dev nD) : Spec.Arr Cert.ReferenceIdeal.S10000x64 :=
  Spec.res (aP m c) (aS1 m c) (arg m c main_arg6) (arg m c main_arg7) (arg m c main_arg8) (arg m c main_arg9) (arg m c main_arg10)
    (arg m c main_arg11) (arg m c main_arg12) (arg m c main_arg13) (arg m c main_arg14)
abbrev aS2 (c : Dev nD) : Spec.Arr Cert.ReferenceIdeal.S10000x64 := Spec.s2 (aRes m c) (arg m c main_arg15)
abbrev aS3 (c : Dev nD) : Spec.Arr Cert.ReferenceIdeal.S10000x32 :=
  Spec.s3 (aP m c) (aS2 m c) (aRes m c) (arg m c main_arg16) (arg m c main_arg17) (arg m c main_arg18) (arg m c main_arg19)
abbrev aOut (c : Dev nD) : Spec.Arr Cert.ReferenceIdeal.S10000x64 :=
  Spec.out (aP m c) (aS3 m c) (arg m c main_arg20) (arg m c main_arg21) (arg m c main_arg22)

/-! ## After region 0 -/

theorem V2_v10 (c : Dev nD) : V2 m ρ c main_v10 = aS1 m c := by
  refine (hF0 m ρ c 4).symm.trans ?_
  rw [Step0.final (V1 m ρ) c (arg m c main_arg4) (V1_v0 m ρ c), V1_arg0, V1_arg3, V1_arg5]

/-- An array that is none of region 0's is not touched by it. -/
theorem V2_arg1 (c : Dev nD) : V2 m ρ c main_arg1 = arg m c main_arg1 := (W2_of_ne m ρ c main_arg1 (by decide)).trans (V1_arg1 m ρ c)
theorem V2_arg2 (c : Dev nD) : V2 m ρ c main_arg2 = arg m c main_arg2 := (W2_of_ne m ρ c main_arg2 (by decide)).trans (V1_arg2 m ρ c)
theorem V2_arg7 (c : Dev nD) : V2 m ρ c main_arg7 = arg m c main_arg7 := (W2_of_ne m ρ c main_arg7 (by decide)).trans (V1_arg7 m ρ c)
theorem V2_arg9 (c : Dev nD) : V2 m ρ c main_arg9 = arg m c main_arg9 := (W2_of_ne m ρ c main_arg9 (by decide)).trans (V1_arg9 m ρ c)
theorem V2_arg11 (c : Dev nD) : V2 m ρ c main_arg11 = arg m c main_arg11 := (W2_of_ne m ρ c main_arg11 (by decide)).trans (V1_arg11 m ρ c)
theorem V2_arg13 (c : Dev nD) : V2 m ρ c main_arg13 = arg m c main_arg13 := (W2_of_ne m ρ c main_arg13 (by decide)).trans (V1_arg13 m ρ c)
theorem V2_arg15 (c : Dev nD) : V2 m ρ c main_arg15 = arg m c main_arg15 := (W2_of_ne m ρ c main_arg15 (by decide)).trans (V1_arg15 m ρ c)
theorem V2_arg17 (c : Dev nD) : V2 m ρ c main_arg17 = arg m c main_arg17 := (W2_of_ne m ρ c main_arg17 (by decide)).trans (V1_arg17 m ρ c)
theorem V2_arg19 (c : Dev nD) : V2 m ρ c main_arg19 = arg m c main_arg19 := (W2_of_ne m ρ c main_arg19 (by decide)).trans (V1_arg19 m ρ c)
theorem V2_arg21 (c : Dev nD) : V2 m ρ c main_arg21 = arg m c main_arg21 := (W2_of_ne m ρ c main_arg21 (by decide)).trans (V1_arg21 m ρ c)
theorem V2_v1 (c : Dev nD) : V2 m ρ c main_v1 = V1 m ρ c main_v1 := W2_of_ne m ρ c main_v1 (by decide)
theorem V2_v2 (c : Dev nD) : V2 m ρ c main_v2 = V1 m ρ c main_v2 := W2_of_ne m ρ c main_v2 (by decide)
theorem V2_v3 (c : Dev nD) : V2 m ρ c main_v3 = V1 m ρ c main_v3 := W2_of_ne m ρ c main_v3 (by decide)
theorem V2_v4 (c : Dev nD) : V2 m ρ c main_v4 = V1 m ρ c main_v4 := W2_of_ne m ρ c main_v4 (by decide)
theorem V2_v5 (c : Dev nD) : V2 m ρ c main_v5 = V1 m ρ c main_v5 := W2_of_ne m ρ c main_v5 (by decide)
theorem V2_v6 (c : Dev nD) : V2 m ρ c main_v6 = V1 m ρ c main_v6 := W2_of_ne m ρ c main_v6 (by decide)
theorem V2_v7 (c : Dev nD) : V2 m ρ c main_v7 = V1 m ρ c main_v7 := W2_of_ne m ρ c main_v7 (by decide)
theorem V2_v8 (c : Dev nD) : V2 m ρ c main_v8 = V1 m ρ c main_v8 := W2_of_ne m ρ c main_v8 (by decide)
theorem V2_v9 (c : Dev nD) : V2 m ρ c main_v9 = V1 m ρ c main_v9 := W2_of_ne m ρ c main_v9 (by decide)

/-! ## After region 1 -/

theorem V3_v11_0 (c : Dev nD) : V3 m ρ c main_v11_0 = aP m c := by
  refine (hF1 m ρ c 13).symm.trans ?_
  rw [Step1.final_13 (V2 m ρ) c, V2_arg1, V2_arg2]

theorem V3_v11_1 (c : Dev nD) : V3 m ρ c main_v11_1 = aRes m c := by
  refine (hF1 m ρ c 14).symm.trans ?_
  rw [Step1.final_14 (V2 m ρ) c (arg m c main_arg6) (arg m c main_arg8) (arg m c main_arg10) (arg m c main_arg12) (arg m c main_arg14)
    (fun q => by rw [V2_v1]; exact V1_v1 m ρ c q) (fun q => by rw [V2_v2]; exact V1_v2 m ρ c q)
    (fun q => by rw [V2_v3]; exact V1_v3 m ρ c q) (fun q => by rw [V2_v4]; exact V1_v4 m ρ c q)
    (fun q => by rw [V2_v5]; exact V1_v5 m ρ c q)]
  unfold Step1.resV
  rw [V2_arg1, V2_arg2, V2_v10, V2_arg7, V2_arg9, V2_arg11, V2_arg13]

theorem V3_v11_2 (c : Dev nD) : V3 m ρ c main_v11_2 = aS2 m c := by
  refine (hF1 m ρ c 15).symm.trans ?_
  rw [Step1.final_15 (V2 m ρ) c (arg m c main_arg6) (arg m c main_arg8) (arg m c main_arg10) (arg m c main_arg12) (arg m c main_arg14)
    (fun q => by rw [V2_v1]; exact V1_v1 m ρ c q) (fun q => by rw [V2_v2]; exact V1_v2 m ρ c q)
    (fun q => by rw [V2_v3]; exact V1_v3 m ρ c q) (fun q => by rw [V2_v4]; exact V1_v4 m ρ c q)
    (fun q => by rw [V2_v5]; exact V1_v5 m ρ c q)]
  unfold Step1.resV
  rw [V2_arg1, V2_arg2, V2_v10, V2_arg7, V2_arg9, V2_arg11, V2_arg13, V2_arg15]

theorem V3_arg17 (c : Dev nD) : V3 m ρ c main_arg17 = arg m c main_arg17 := (W3_of_ne m ρ c main_arg17 (by decide)).trans (V2_arg17 m ρ c)
theorem V3_arg19 (c : Dev nD) : V3 m ρ c main_arg19 = arg m c main_arg19 := (W3_of_ne m ρ c main_arg19 (by decide)).trans (V2_arg19 m ρ c)
theorem V3_arg21 (c : Dev nD) : V3 m ρ c main_arg21 = arg m c main_arg21 := (W3_of_ne m ρ c main_arg21 (by decide)).trans (V2_arg21 m ρ c)
theorem V3_v6 (c : Dev nD) : V3 m ρ c main_v6 = V1 m ρ c main_v6 := (W3_of_ne m ρ c main_v6 (by decide)).trans (V2_v6 m ρ c)
theorem V3_v7 (c : Dev nD) : V3 m ρ c main_v7 = V1 m ρ c main_v7 := (W3_of_ne m ρ c main_v7 (by decide)).trans (V2_v7 m ρ c)
theorem V3_v8 (c : Dev nD) : V3 m ρ c main_v8 = V1 m ρ c main_v8 := (W3_of_ne m ρ c main_v8 (by decide)).trans (V2_v8 m ρ c)
theorem V3_v9 (c : Dev nD) : V3 m ρ c main_v9 = V1 m ρ c main_v9 := (W3_of_ne m ρ c main_v9 (by decide)).trans (V2_v9 m ρ c)

/-! ## After region 2 -/

theorem V4_v12 (c : Dev nD) : V4 m ρ c main_v12 = aS3 m c := by
  refine (hF2 m ρ c 7).symm.trans ?_
  rw [Step2.final (V3 m ρ) c (arg m c main_arg16) (arg m c main_arg18)
    (fun q => by rw [V3_v6]; exact V1_v6 m ρ c q) (fun q => by rw [V3_v7]; exact V1_v7 m ρ c q)]
  rw [V3_v11_0, V3_v11_2, V3_v11_1, V3_arg17, V3_arg19]

/-- The weighted adjacency is an input of region 2: it ends as it was entered. -/
theorem V4_v11_0 (c : Dev nD) : V4 m ρ c main_v11_0 = aP m c :=
  ((W4_arr m ρ c 0).trans (((dat2 (V3 m ρ) c).arrAt_in 0 rfl _).trans (A_eq2 (V3 m ρ) c 0))).trans (V3_v11_0 m ρ c)

theorem V4_arg21 (c : Dev nD) : V4 m ρ c main_arg21 = arg m c main_arg21 := (W4_of_ne m ρ c main_arg21 (by decide)).trans (V3_arg21 m ρ c)
theorem V4_v8 (c : Dev nD) : V4 m ρ c main_v8 = V1 m ρ c main_v8 := (W4_of_ne m ρ c main_v8 (by decide)).trans (V3_v8 m ρ c)
theorem V4_v9 (c : Dev nD) : V4 m ρ c main_v9 = V1 m ρ c main_v9 := (W4_of_ne m ρ c main_v9 (by decide)).trans (V3_v9 m ρ c)

/-! ## After region 3: the result -/

/-- THE RESULT ARRAY at the last boundary of the run is the whole computation of the argument arrays. -/
theorem result (c : Dev nD) : W5 m ρ c (Proc.devRef .tc main_v13) = aOut m c := by
  refine (W5_arr m ρ c 5).trans ?_
  rw [Step3.final (V4 m ρ) c (arg m c main_arg20) (arg m c main_arg22)
    (fun q => by rw [V4_v8]; exact V1_v8 m ρ c q) (fun q => by rw [V4_v9]; exact V1_v9 m ρ c q)]
  rw [V4_v11_0, V4_v12, V4_arg21]

end Cert.KernelIdeal.Chain

end
-- ==== Proof.RefSide.lean ====
/-
  The reference's side: its run ends with the result array at the composition of its own whole-array operations
  of the argument arrays, and that composition is `Spec.out` of the weighted adjacency `adj ∘ dis`, the third
  support and the last layer's weights — the definitions of `Spec` are the reference's operations in its order,
  so the two terms unfold to one.
-/
import proofs.«151210_g85950885527879_cont_sun_c4_601_3_alg».proof.Proof.Gen.ReferenceIdeal.Run
import proofs.«151210_g85950885527879_cont_sun_c4_601_3_alg».proof.Proof.Gen.ReferenceIdeal.Read
import proofs.«151210_g85950885527879_cont_sun_c4_601_3_alg».proof.Proof.Spec

noncomputable section

namespace Cert.ReferenceIdeal.RefValue

open Cert.ReferenceIdeal Cert.ReferenceIdeal.Gen Idealize.ShloMosaic Idealize.ShloMosaic.TcCoe Idealize.SL.Sem

/-- The whole computation as one function of the 23 argument arrays. -/
def whole (x0 : Spec.Arr S10000x128) (x1 x2 : Spec.Arr S10000x10000) (x3 : Spec.Arr S128x128) (x4 : Spec.Arr S128)
    (x5 : Spec.Arr S128x128) (x6 : Spec.Arr S128) (x7 : Spec.Arr S128x64) (x8 : Spec.Arr S64) (x9 : Spec.Arr S64x128)
    (x10 : Spec.Arr S128) (x11 : Spec.Arr S128x64) (x12 : Spec.Arr S64) (x13 : Spec.Arr S64x64) (x14 : Spec.Arr S64)
    (x15 : Spec.Arr S64x64) (x16 : Spec.Arr S64) (x17 : Spec.Arr S64x32) (x18 : Spec.Arr S32) (x19 : Spec.Arr S32x32)
    (x20 : Spec.Arr S32) (x21 : Spec.Arr S32x64) (x22 : Spec.Arr S64) : Spec.Arr S10000x64 :=
  Spec.out (Spec.P x1 x2)
    (Spec.s3 (Spec.P x1 x2)
      (Spec.s2 (Spec.res (Spec.P x1 x2) (Spec.s1 x0 x3 x4 x5) x6 x7 x8 x9 x10 x11 x12 x13 x14) x15)
      (Spec.res (Spec.P x1 x2) (Spec.s1 x0 x3 x4 x5) x6 x7 x8 x9 x10 x11 x12 x13 x14) x16 x17 x18 x19)
    x20 x21 x22

/-- The reference's result term is that function of its argument arrays. -/
theorem result_eq (m : (ℓ : Loc nD τ sig) → Buf (Elt Ideal) ℓ) (c : Dev nD) :
    Cert.ReferenceIdeal.Value.res_main_v63 (F := Ideal) m c
      = whole (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8))
          (m ((c.tc : Thread nD τ).loc main_arg9)) (m ((c.tc : Thread nD τ).loc main_arg10)) (m ((c.tc : Thread nD τ).loc main_arg11))
          (m ((c.tc : Thread nD τ).loc main_arg12)) (m ((c.tc : Thread nD τ).loc main_arg13)) (m ((c.tc : Thread nD τ).loc main_arg14))
          (m ((c.tc : Thread nD τ).loc main_arg15)) (m ((c.tc : Thread nD τ).loc main_arg16)) (m ((c.tc : Thread nD τ).loc main_arg17))
          (m ((c.tc : Thread nD τ).loc main_arg18)) (m ((c.tc : Thread nD τ).loc main_arg19)) (m ((c.tc : Thread nD τ).loc main_arg20))
          (m ((c.tc : Thread nD τ).loc main_arg21)) (m ((c.tc : Thread nD τ).loc main_arg22)) := by
  unfold Cert.ReferenceIdeal.Value.res_main_v63 whole Spec.out Spec.s3 Spec.s2 Spec.res Spec.resOf Spec.z2 Spec.s1 Spec.P
    Spec.relu64 Spec.leaky64 Spec.leaky128 Spec.bias128 Spec.bias64 Spec.bias32
  rfl

end Cert.ReferenceIdeal.RefValue

end
-- ==== Proof.lean ====
/-
  A graph network's forward pass — three propagation steps `(adj ∘ dis) · support + b` over a dense 10000 × 10000
  adjacency, with small dense layers between them — computed by four pallas_calls against the plain jnp reference.

  At the ideal instance a change of float format is the identity, so the kernel's bf16 copies of the weighted
  adjacency and of the three supports are the arrays themselves, and its matrix products into a zero accumulator are
  the host's products. What is left is a matter of rows: every grid point of the three gridded calls works on 200
  whole rows of the tall arrays and on the whole of every small one, and a product with a whole right operand, a
  pointwise operation, a bias row and a splat constant all commute with taking rows. So each call leaves in each of
  its result arrays the whole-array function the reference computes there (`Spec`), and chaining the four calls
  gives the reference's result as one function of the 23 argument arrays. No algebraic law joins the two sides beyond
  this re-tiling, so the precondition (finite inputs) is never opened.

  The three frames: the two kernel programs' are the generated ones; the reference's is its generated run with the
  result dropped. `preserves` is trivial: the ideal pass rewrote no operation.
-/
import proofs.«151210_g85950885527879_cont_sun_c4_601_3_alg».proof.Defs
import proofs.«151210_g85950885527879_cont_sun_c4_601_3_alg».proof.Proof.Gen.Kernel
import proofs.«151210_g85950885527879_cont_sun_c4_601_3_alg».proof.Proof.Gen.Kernel.Skeleton
import proofs.«151210_g85950885527879_cont_sun_c4_601_3_alg».proof.Proof.Gen.Kernel.Launch
import proofs.«151210_g85950885527879_cont_sun_c4_601_3_alg».proof.Proof.Gen.Kernel.Points
import proofs.«151210_g85950885527879_cont_sun_c4_601_3_alg».proof.Proof.Gen.Kernel.Frame
import proofs.«151210_g85950885527879_cont_sun_c4_601_3_alg».proof.Proof.Gen.KernelIdeal
import proofs.«151210_g85950885527879_cont_sun_c4_601_3_alg».proof.Proof.Gen.KernelIdeal.Skeleton
import proofs.«151210_g85950885527879_cont_sun_c4_601_3_alg».proof.Proof.Gen.KernelIdeal.Launch
import proofs.«151210_g85950885527879_cont_sun_c4_601_3_alg».proof.Proof.Gen.KernelIdeal.Points
import proofs.«151210_g85950885527879_cont_sun_c4_601_3_alg».proof.Proof.Gen.KernelIdeal.Frame
import proofs.«151210_g85950885527879_cont_sun_c4_601_3_alg».proof.Proof.Gen.ReferenceIdeal
import proofs.«151210_g85950885527879_cont_sun_c4_601_3_alg».proof.Proof.Gen.ReferenceIdeal.Run
import proofs.«151210_g85950885527879_cont_sun_c4_601_3_alg».proof.Proof.Gen.Pre_finite_inputs
import proofs.«151210_g85950885527879_cont_sun_c4_601_3_alg».proof.Proof.KRun
import proofs.«151210_g85950885527879_cont_sun_c4_601_3_alg».proof.Proof.Chain
import proofs.«151210_g85950885527879_cont_sun_c4_601_3_alg».proof.Proof.RefSide
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both programs end with the result array at the whole computation of the argument arrays: the kernel's run by the
    chain of its four regions, the reference's by its generated run, whose term is that function; the arguments
    agree, so the two results are one array. -/
theorem algebraic : Cert.algebraic_KernelIdeal_ReferenceIdeal := by
  intro m ρ m' ρ' _ hagree
  refine ⟨fun c => Cert.KernelIdeal.Chain.aOut m c, ?_, ?_⟩
  · exact (θ_run Cert.KernelIdeal.defs _ _).mono
      (fun r h c => ⟨(h c).1.trans (Cert.KernelIdeal.Chain.result m ρ c), (h c).2⟩) (Cert.KernelIdeal.Gen.run_named m ρ)
  · refine (θ_run Cert.ReferenceIdeal.defs _ _).mono (fun r h c => ⟨(h c).1.trans ?_, (h c).2⟩)
      (Cert.ReferenceIdeal.Value.run (F := Ideal) m' ρ')
    rw [Cert.ReferenceIdeal.RefValue.result_eq]
    obtain ⟨h0, h1, h2, h3, h4, h5, h6, h7, h8, h9, h10, h11, h12, h13, h14, h15, h16, h17, h18, h19, h20, h21, h22⟩ := hagree c
    rw [h0, h1, h2, h3, h4, h5, h6, h7, h8, h9, h10, h11, h12, h13, h14, h15, h16, h17, h18, h19, h20, h21, h22]
    rfl

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
